-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x8 : Shape := ⟨2, ![800000, 8]⟩
abbrev S136x128 : Shape := ⟨2, ![136, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 4294917296#32
  let main_v59 : IVec S2x800000 32 := broadcastInDim S2x800000 ![] bcast_S_S2x800000 main_c_22
  let main_v60 : IVec S2x800000 1 := cmpi .sge main_arg1 main_v59
  let main_c_23 : IVec S_ 32 := constantI S_ 32 50000#32
  let main_v61 : IVec S2x800000 32 := broadcastInDim S2x800000 ![] bcast_S_S2x800000 main_c_23
  let main_v62 : IVec S2x800000 1 := cmpi .slt main_arg1 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  main_v65

def fn_part2 {F : FTy → Type} [FloatOps F] (main_arg1 : IVec S2x800000 32) (main_arg8 : FVec F S128 .f32) (main_arg9 : FVec F S128x64 .f32) (main_arg10 : FVec F S64 .f32) (main_arg11 : FVec F S64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_v48 main_v49 main_v50

def fn_part1 {F : FTy → Type} [FloatOps F] (main_arg1 : IVec S2x800000 32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x64 .f32) (main_arg1 : IVec S2x800000 32) (main_arg2 : FVec F S800000x8 .f32) (main_arg3 : FVec F S136x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S136x128 .f32 := Host.absf main_arg3
  let main_cst_2 : FVec F S_ .f32 := constant S_ .f32 0x7F800000#32
  let main_v10 : FVec F S136x128 .f32 := broadcastInDim S136x128 ![] bcast_S_S136x128 main_cst_2
  let main_v11 : IVec S136x128 1 := cmpf .olt main_v9 main_v10
  let main_c_3 : IVec S_ 1 := constantI S_ 1 1#1
  let main_v12 : IVec S_ 1 := (fun x v => Host.reduce IntOp.andi x v reducesTo_S136x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S800000x8 : Shape := ⟨2, ![800000, 8]⟩
abbrev S136x128 : Shape := ⟨2, ![136, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x128 : Shape := ⟨2, ![800000, 128]⟩
abbrev S8x128 : Shape := ⟨2, ![8, 128]⟩
abbrev S8000x128 : Shape := ⟨2, ![8000, 128]⟩
abbrev S8000x8 : Shape := ⟨2, ![8000, 8]⟩
abbrev S8000x64 : Shape := ⟨2, ![8000, 64]⟩
abbrev S1x128 : Shape := ⟨2, ![1, 128]⟩
abbrev S1x64 : Shape := ⟨2, ![1, 64]⟩
abbrev S50000x128 : Shape := ⟨2, ![50000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 82
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x64, .f32⟩
  | .hbm, ⟨36, _⟩ => ⟨S800000x64, .i1⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S1, .i32⟩
  | .hbm, ⟨49, _⟩ => ⟨S_, .i32⟩
  | .hbm, ⟨50, _⟩ => ⟨S800000x1, .i32⟩
  | .hbm, ⟨51, _⟩ => ⟨S800000x1, .i1⟩
  | .hbm, ⟨52, _⟩ => ⟨S1x1, .i32⟩
  | .hbm, ⟨53, _⟩ => ⟨S800000x1, .i32⟩
  | .hbm, ⟨54, _⟩ => ⟨S800000x1, .i1⟩
  | .hbm, ⟨55, _⟩ => ⟨S800000x1, .i1⟩
  | .hbm, ⟨56, _⟩ => ⟨S_, .i1⟩
  | .hbm, ⟨57, _⟩ => ⟨S800000, .i1⟩
  | .hbm, ⟨58, _⟩ => ⟨S800000x64, .f32⟩
  | .hbm, ⟨59, _⟩ => ⟨S800000x64, .i1⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x128, .f32⟩
  | .hbm, ⟨64, _⟩ => ⟨S800000x128, .bf16⟩
  | .hbm, ⟨65, _⟩ => ⟨S800000x8, .bf16⟩
  | .hbm, ⟨66, _⟩ => ⟨S128x128, .f32⟩
  | .hbm, ⟨67, _⟩ => ⟨S128x128, .bf16⟩
  | .hbm, ⟨68, _⟩ => ⟨S8x128, .f32⟩
  | .hbm, ⟨69, _⟩ => ⟨S8x128, .bf16⟩
  | .hbm, ⟨70, _⟩ => ⟨S128x64, .bf16⟩
  | .hbm, ⟨71, _⟩ => ⟨S800000x64, .bf16⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x128, .f32⟩
  | .hbm, ⟨78, _⟩ => ⟨S50000x128, .bf16⟩
  | .hbm, ⟨79, _⟩ => ⟨S128x128, .bf16⟩
  | .hbm, ⟨80, _⟩ => ⟨S128x64, .bf16⟩
  | .hbm, ⟨81, _⟩ => ⟨S50000x64, .f32⟩
  | .local _ .vmem, ⟨0, _⟩ => ⟨S8000x128, .bf16⟩
  | .local _ .vmem, ⟨1, _⟩ => ⟨S8000x128, .bf16⟩
  | .local _ .vmem, ⟨2, _⟩ => ⟨S8000x8, .bf16⟩
  | .local _ .vmem, ⟨3, _⟩ => ⟨S8000x8, .bf16⟩
  | .local _ .vmem, ⟨4, _⟩ => ⟨S128x128, .bf16⟩
  | .local _ .vmem, ⟨5, _⟩ => ⟨S8x128, .bf16⟩
  | .local _ .vmem, ⟨6, _⟩ => ⟨S128, .f32⟩
  | .local _ .vmem, ⟨7, _⟩ => ⟨S128x64, .bf16⟩
  | .local _ .vmem, ⟨8, _⟩ => ⟨S64, .f32⟩
  | .local _ .vmem, ⟨9, _⟩ => ⟨S8000x64, .bf16⟩
  | .local _ .vmem, ⟨10, _⟩ => ⟨S8000x64, .bf16⟩
  | .local _ .vmem, ⟨11, _⟩ => ⟨S5000x64, .f32⟩
  | .local _ .vmem, ⟨12, _⟩ => ⟨S5000x64, .f32⟩
  | .local _ .vmem, ⟨13, _⟩ => ⟨S5000x128, .bf16⟩
  | .local _ .vmem, ⟨14, _⟩ => ⟨S5000x128, .bf16⟩
  | .local _ .vmem, ⟨15, _⟩ => ⟨S128x128, .bf16⟩
  | .local _ .vmem, ⟨16, _⟩ => ⟨S128, .f32⟩
  | .local _ .vmem, ⟨17, _⟩ => ⟨S128x64, .bf16⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x128_d1 : Shape.Concatenates [S800000x64, S800000x64] S800000x128 1
  bitsLt_bf16_f32 : FTy.bits .bf16 < FTy.bits .f32
  slices_S136x128_S128x128_0_0 : S136x128.Slices ![0, 0] S128x128
  slices_S136x128_S8x128_128_0 : S136x128.Slices ![128, 0] S8x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  bcast_S_S50000x64 : S_.BroadcastsInDim S50000x64 (![] : Fin 0 → Fin S50000x64.rank)
  concatenates_S50000x64_S50000x64_S50000x128_d1 : Shape.Concatenates [S50000x64, S50000x64] S50000x128 1
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S800000x1_S800000x64_1_0_n_n_0_1_164_wf : GatherDims.WF S50000x64 S800000x1 S800000x64 [1] [0] [] [0] [] 1 ![1, 64]
  dot_S8000x128_S128x128_S8000x128_1_0_0_1_n_n_wf : DotDims.WF S8000x128 S128x128 S8000x128 [1] [0] [0] [1] [] []
  dot_S8000x8_S8x128_S8000x128_1_0_0_1_n_n_wf : DotDims.WF S8000x8 S8x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S800000x8.size a
  hwx0_1 : ∀ i : grid0.Coords, EltTy.bits .bf16 = 32 ∨ (Rect.block (s := S800000x8) S8000x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .bf16 = 32 ∨ (Rect.block (s := S8x128) S8x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .bf16 = 32 ∨ (Rect.block (s := S800000x64) S8000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x8 : Shape := ⟨2, ![800000, 8]⟩
abbrev S136x128 : Shape := ⟨2, ![136, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x136 : Shape := ⟨2, ![800000, 136]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩
abbrev S50000 : Shape := ⟨1, ![50000]⟩
abbrev S50000x1 : Shape := ⟨2, ![50000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S800000x136, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S800000x64, .f32⟩
  | .hbm, ⟨44, _⟩ => ⟨S1x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x8_S800000x136_d1 : Shape.Concatenates [S800000x64, S800000x64, S800000x8] S800000x136 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x136_S136x128_S800000x128_1_0_0_1_n_n_wf : DotDims.WF S800000x136 S136x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x128_S800000x128_1_0_0_1_n_n : DotDims S800000x136 S136x128 S800000x128 where
  lhsContracting := [1]
  rhsContracting := [0]
  lhsNonContracting := [0]
  rhsNonContracting := [1]
  lhsBatch := []
  rhsBatch := []
  wf := dot_S800000x136_S136x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, one row at a time, over the extended reals.

  An edge's message is a two-layer perceptron of one row of 128 gathered node features and one row of 8 edge
  attributes: a first layer of 128 hidden units (weights split as a 128-row part and an 8-row part, a bias, a
  maximum with zero), then a second layer into 64 outputs with a bias. A node's new feature row is the layer
  norm, over its 64 entries, of the row plus a two-layer perceptron of a 128-entry input row.

  The one algebraic law needed between the two programs: a sum over 136 = 128 + 8 terms is the sum of its first
  128 terms plus the sum of its last 8 (commutativity and associativity of addition, which hold on the extended
  reals; no finiteness is used).
-/
import Idealize.ShloMosaic.PureOps.Ideal
import Idealize.ShloMosaic.PureOps.Ideal.Laws
import Idealize.ShloMosaic.Lib.ValueIdx

noncomputable section

open scoped BigOperators

namespace Cert.GnnSpec

open Idealize.ShloMosaic

/-- The word of the float zero both programs take their maximum with. -/
abbrev z0 : EReal := Ideal.ofBits .f32 0x00000000#32

/-- One edge's message at output column `j`: the first layer's contraction taken in two parts (128 gathered
    features against `w1`, 8 edge attributes against `w1e`), a bias, a maximum with zero, the second layer. -/
def edgeRow (x : Fin 128 → EReal) (a : Fin 8 → EReal) (w1 : Fin 128 → Fin 128 → EReal) (w1e : Fin 8 → Fin 128 → EReal)
    (b1 : Fin 128 → EReal) (w2 : Fin 128 → Fin 64 → EReal) (b2 : Fin 64 → EReal) (j : Fin 64) : EReal :=
  (∑ k : Fin 128, max (((∑ k' : Fin 128, x k' * w1 k' k) + (∑ k'' : Fin 8, a k'' * w1e k'' k)) + b1 k) z0 * w2 k j) + b2 j

/-- The same message with the first layer's contraction taken whole over the 136 joined inputs. -/
def edgeRowJoined (z : Fin 136 → EReal) (W : Fin 136 → Fin 128 → EReal)
    (b1 : Fin 128 → EReal) (w2 : Fin 128 → Fin 64 → EReal) (b2 : Fin 64 → EReal) (j : Fin 64) : EReal :=
  (∑ k : Fin 128, max ((∑ k' : Fin 136, z k' * W k' k) + b1 k) z0 * w2 k j) + b2 j

/-- A sum over 136 terms is the sum of the first 128 plus the sum of the last 8. -/
theorem sum_136 (f : Fin 136 → EReal) :
    (∑ k : Fin 136, f k) = (∑ k : Fin 128, f (Fin.castAdd 8 k)) + ∑ k : Fin 8, f (Fin.natAdd 128 k) :=
  Fin.sum_univ_add (a := 128) (b := 8) f

/-- The joined form is the split form at the joined row's two parts and the weight matrix's two row blocks. -/
theorem edgeRowJoined_eq (z : Fin 136 → EReal) (W : Fin 136 → Fin 128 → EReal)
    (b1 : Fin 128 → EReal) (w2 : Fin 128 → Fin 64 → EReal) (b2 : Fin 64 → EReal) (j : Fin 64) :
    edgeRowJoined z W b1 w2 b2 j
      = edgeRow (fun k => z (Fin.castAdd 8 k)) (fun k => z (Fin.natAdd 128 k))
          (fun k' k => W (Fin.castAdd 8 k') k) (fun k'' k => W (Fin.natAdd 128 k'') k) b1 w2 b2 j := by
  unfold edgeRowJoined edgeRow
  simp only [sum_136]

/-- A node's row before the layer norm: the feature row plus the update perceptron of the 128-entry input row. -/
def nodeRes (h : Fin 64 → EReal) (u : Fin 128 → EReal) (w1 : Fin 128 → Fin 128 → EReal) (b1 : Fin 128 → EReal)
    (w2 : Fin 128 → Fin 64 → EReal) (b2 : Fin 64 → EReal) (j : Fin 64) : EReal :=
  h j + ((∑ k : Fin 128, max ((∑ k' : Fin 128, u k' * w1 k' k) + b1 k) z0 * w2 k j) + b2 j)

/-- The mean of a row of 64 entries (the divisor is the word of 64.0). -/
def rowMean (r : Fin 64 → EReal) : EReal := Ideal.div (∑ j : Fin 64, r j) (Ideal.ofBits .f32 0x42800000#32)

/-- The layer norm of a row of 64 entries at column `j`: centred, scaled by the reciprocal square root of the
    variance plus the epsilon word, then the gain and the bias. -/
def layerNorm (r : Fin 64 → EReal) (g b : Fin 64 → EReal) (j : Fin 64) : EReal :=
  (r j - rowMean r) * Ideal.rsqrt (rowMean (fun j' => (r j' - rowMean r) * (r j' - rowMean r)) + Ideal.ofBits .f32 0x3727C5AC#32) * g j + b j

/-- One node's new feature row at column `j`. -/
def nodeRow (h : Fin 64 → EReal) (u : Fin 128 → EReal) (w1 : Fin 128 → Fin 128 → EReal) (b1 : Fin 128 → EReal)
    (w2 : Fin 128 → Fin 64 → EReal) (b2 g b : Fin 64 → EReal) (j : Fin 64) : EReal :=
  layerNorm (nodeRes h u w1 b1 w2 b2) g b j

/-! ## The same, on whole arrays -/

open Idealize.ShloMosaic.ValueIdx

/-- A matrix of extended reals with `n0` rows and `n1` columns, and a vector of `n` entries. -/
abbrev Mat (n0 n1 : Nat) : Type := (⟨2, ![n0, n1]⟩ : Shape).Idx → EReal
abbrev Vec1 (n : Nat) : Type := (⟨1, ![n]⟩ : Shape).Idx → EReal

/-- The row and the column of a matrix index. -/
abbrev rowOf {n0 n1 : Nat} (i : (⟨2, ![n0, n1]⟩ : Shape).Idx) : Fin n0 := ⟨(i 0).val, (i 0).isLt⟩
abbrev colOf {n0 n1 : Nat} (i : (⟨2, ![n0, n1]⟩ : Shape).Idx) : Fin n1 := ⟨(i 1).val, (i 1).isLt⟩

/-- All 800000 edge messages: entry (e, j) is `edgeRow` of row e of the gathered features and of the edge attributes. -/
def edgeArr (x : Mat 800000 128) (a : Mat 800000 8) (w1 : Mat 128 128) (w1e : Mat 8 128) (b1 : Vec1 128)
    (w2 : Mat 128 64) (b2 : Vec1 64) : Mat 800000 64 :=
  fun i => edgeRow (fun k => x (ix2 (rowOf i) k)) (fun k => a (ix2 (rowOf i) k)) (fun k' k => w1 (ix2 k' k))
    (fun k'' k => w1e (ix2 k'' k)) (fun k => b1 (ix1 k)) (fun k j => w2 (ix2 k j)) (fun j => b2 (ix1 j)) (colOf i)

/-- All 50000 new node rows: entry (n, j) is `nodeRow` of row n of the features and of the update input. -/
def nodeArr (h : Mat 50000 64) (u : Mat 50000 128) (w1 : Mat 128 128) (b1 : Vec1 128) (w2 : Mat 128 64)
    (b2 g b : Vec1 64) : Mat 50000 64 :=
  fun i => nodeRow (fun j => h (ix2 (rowOf i) j)) (fun k => u (ix2 (rowOf i) k)) (fun k' k => w1 (ix2 k' k))
    (fun k => b1 (ix1 k)) (fun k j => w2 (ix2 k j)) (fun j => b2 (ix1 j)) (fun j => g (ix1 j)) (fun j => b (ix1 j)) (colOf i)

end Cert.GnnSpec

end
-- ==== Proof.EdgeRegion.lean ====
/-
  The edge kernel's output array, whole: entry (e, j) of what the 100 grid points write back is the message of
  edge e at column j, a function of row e of the two edge-indexed operands and of the resident weights.

  Three steps. One entry of what the body stores, as a function of the blocks it loaded: the three matrix products
  are sums over their one contracted axis, the two biases are rows laid along every row of a block, the format
  changes are the identity on extended reals, so entry (p, q) is the message of the block's row p at column q.
  Then the blocks: point t holds rows 8000 t … 8000 t + 7999 of the two edge-indexed arrays and all of every weight
  and bias, and writes back rows 8000 t … 8000 t + 7999 of the output. Last the cover: row r is written by point
  r / 8000, so the array ends holding every edge's message.
-/
import proofs.«420053_j7799660609778_2_alg».proof.Proof.Gen.KernelIdeal.Frame
import proofs.«420053_j7799660609778_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-! ## One entry of what the body stores -/

/-! ### The features' product: 8000 rows of 128 gathered features against the 128 x 128 weights

Its dimension numbers contract the left operand's axis 1 with the right operand's axis 0: at output index (p, q) and
contraction coordinate k the left factor is read at (p, k) and the right one at (k, q). -/

theorem lhs_a_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_a_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_a_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_a_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Entry (p, q) of the product accumulated into zeros: the sum over k of the feature at (p, k) times the weight at (k, q). -/
theorem mm_a_apply (l : FVec Ideal S8000x128 .bf16) (r : FVec Ideal S128x128 .bf16) (p : Fin 8000) (q : Fin 128) :
    matmul dot_S8000x128_S128x128_S8000x128_1_0_0_1_n_n none l r (constant (F := Ideal) S8000x128 .f32 0x00000000#32) (ix2 p q)
      = ∑ k : Fin 128, l (ix2 p k) * r (ix2 k q) := by
  show FloatOps.matmul dot_S8000x128_S128x128_S8000x128_1_0_0_1_n_n none l r (constant (F := Ideal) S8000x128 .f32 0x00000000#32) (ix2 p q) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

/-! ### The attributes' product: 8000 rows of 8 edge attributes against the 8 x 128 weights

Its dimension numbers contract the left operand's axis 1 with the right operand's axis 0: at output index (p, q) and
contraction coordinate k the left factor is read at (p, k) and the right one at (k, q). -/

theorem lhs_b_0 (i : S8000x128.Idx) (q : dot_S8000x8_S8x128_S8000x128_1_0_0_1_n_n.contr.Idx) :
    (dot_S8000x8_S8x128_S8000x128_1_0_0_1_n_n.lhsIdx i q 0).val = (i 0).val := by
  unfold DotDims.lhsIdx
  rw [dif_neg (show ¬(0 : Fin S8000x8.rank) ∈ dot_S8000x8_S8x128_S8000x128_1_0_0_1_n_n.lhsBatch by decide), dif_pos (show (0 : Fin S8000x8.rank) ∈ dot_S8000x8_S8x128_S8000x128_1_0_0_1_n_n.lhsNonContracting by decide)]
  rfl
theorem lhs_b_1 (i : S8000x128.Idx) (q : dot_S8000x8_S8x128_S8000x128_1_0_0_1_n_n.contr.Idx) :
    (dot_S8000x8_S8x128_S8000x128_1_0_0_1_n_n.lhsIdx i q 1).val = (q ⟨0, by decide⟩).val :=
  dot_S8000x8_S8x128_S8000x128_1_0_0_1_n_n.lhsIdx_val_of_single rfl i q
theorem rhs_b_0 (i : S8000x128.Idx) (q : dot_S8000x8_S8x128_S8000x128_1_0_0_1_n_n.contr.Idx) :
    (dot_S8000x8_S8x128_S8000x128_1_0_0_1_n_n.rhsIdx i q 0).val = (q ⟨0, by decide⟩).val :=
  dot_S8000x8_S8x128_S8000x128_1_0_0_1_n_n.rhsIdx_val_of_single rfl i q
theorem rhs_b_1 (i : S8000x128.Idx) (q : dot_S8000x8_S8x128_S8000x128_1_0_0_1_n_n.contr.Idx) :
    (dot_S8000x8_S8x128_S8000x128_1_0_0_1_n_n.rhsIdx i q 1).val = (i 1).val := by
  unfold DotDims.rhsIdx
  rw [dif_neg (show ¬(1 : Fin S8x128.rank) ∈ dot_S8000x8_S8x128_S8000x128_1_0_0_1_n_n.rhsBatch by decide), dif_pos (show (1 : Fin S8x128.rank) ∈ dot_S8000x8_S8x128_S8000x128_1_0_0_1_n_n.rhsNonContracting by decide)]
  rfl

/-- Entry (p, q) of the product accumulated into zeros: the sum over k of the attribute at (p, k) times the weight at (k, q). -/
theorem mm_b_apply (l : FVec Ideal S8000x8 .bf16) (r : FVec Ideal S8x128 .bf16) (p : Fin 8000) (q : Fin 128) :
    matmul dot_S8000x8_S8x128_S8000x128_1_0_0_1_n_n none l r (constant (F := Ideal) S8000x128 .f32 0x00000000#32) (ix2 p q)
      = ∑ k : Fin 8, l (ix2 p k) * r (ix2 k q) := by
  show FloatOps.matmul dot_S8000x8_S8x128_S8000x128_1_0_0_1_n_n none l r (constant (F := Ideal) S8000x128 .f32 0x00000000#32) (ix2 p q) = _
  rw [Ideal.matmul_constant_zero_apply, ← Equiv.sum_comp (contrEquiv1 dot_S8000x8_S8x128_S8000x128_1_0_0_1_n_n 8 rfl rfl).symm]
  refine Finset.sum_congr rfl fun k _ => ?_
  have hk := contrEquiv1_symm_val dot_S8000x8_S8x128_S8000x128_1_0_0_1_n_n 8 rfl rfl k
  have el : dot_S8000x8_S8x128_S8000x128_1_0_0_1_n_n.lhsIdx (ix2 p q) ((contrEquiv1 dot_S8000x8_S8x128_S8000x128_1_0_0_1_n_n 8 rfl rfl).symm k) = ix2 p k := funext fun a => Fin.ext (by
    match a with
    | ⟨0, _⟩ => exact lhs_b_0 _ _
    | ⟨1, _⟩ => exact (lhs_b_1 _ _).trans hk)
  have er : dot_S8000x8_S8x128_S8000x128_1_0_0_1_n_n.rhsIdx (ix2 p q) ((contrEquiv1 dot_S8000x8_S8x128_S8000x128_1_0_0_1_n_n 8 rfl rfl).symm k) = ix2 k q := funext fun a => Fin.ext (by
    match a with
    | ⟨0, _⟩ => exact (rhs_b_0 _ _).trans hk
    | ⟨1, _⟩ => exact rhs_b_1 _ _)
  rw [el, er]

/-! ### The second layer's product: 8000 rows of 128 hidden units against the 128 x 64 weights

Its dimension numbers contract the left operand's axis 1 with the right operand's axis 0: at output index (p, q) and
contraction coordinate k the left factor is read at (p, k) and the right one at (k, q). -/

theorem lhs_c_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_c_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_c_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_c_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- Entry (p, q) of the product accumulated into zeros: the sum over k of the hidden unit at (p, k) times the weight at (k, q). -/
theorem mm_c_apply (l : FVec Ideal S8000x128 .bf16) (r : FVec Ideal S128x64 .bf16) (p : Fin 8000) (q : Fin 64) :
    matmul dot_S8000x128_S128x64_S8000x64_1_0_0_1_n_n none l r (constant (F := Ideal) S8000x64 .f32 0x00000000#32) (ix2 p q)
      = ∑ k : Fin 128, l (ix2 p k) * r (ix2 k q) := by
  show FloatOps.matmul dot_S8000x128_S128x64_S8000x64_1_0_0_1_n_n none l r (constant (F := Ideal) S8000x64 .f32 0x00000000#32) (ix2 p q) = _
  rw [Ideal.matmul_constant_zero_apply, ← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p q) ((contrEquiv1 dot_S8000x128_S128x64_S8000x64_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S8000x128_S128x64_S8000x64_1_0_0_1_n_n.rhsIdx (ix2 p q) ((contrEquiv1 dot_S8000x128_S128x64_S8000x64_1_0_0_1_n_n 128 rfl rfl).symm k) = ix2 k q := funext fun a => Fin.ext (by
    match a with
    | ⟨0, _⟩ => exact (rhs_c_0 _ _).trans hk
    | ⟨1, _⟩ => exact rhs_c_1 _ _)
  rw [el, er]

/-! ### The biases and the whole entry -/

/-- The first bias laid along every row of the hidden block. -/
theorem bias128_apply (b : FVec Ideal S128 .f32) (p : Fin 8000) (k : Fin 128) :
    broadcastTo S8000x128 (shapeCast S1x128 b shapeCasts_S128_S1x128) broadcasts_S1x128_S8000x128 (ix2 p k) = b (ix1 k) := by
  rw [broadcastTo_1b_ab_apply, shapeCast_a_1a_apply]

/-- The second bias laid along every row of the output block. -/
theorem bias64_apply (b : FVec Ideal S64 .f32) (p : Fin 8000) (q : Fin 64) :
    broadcastTo S8000x64 (shapeCast S1x64 b shapeCasts_S64_S1x64) broadcasts_S1x64_S8000x64 (ix2 p q) = b (ix1 q) := by
  rw [broadcastTo_1b_ab_apply, shapeCast_a_1a_apply]

/-- Entry (p, q) of what the body stores: the message of the block's row p at column q, as a function of the
    blocks the body loaded. -/
theorem pay_apply (x0 : Vec Ideal S8000x128 .bf16) (x1 : Vec Ideal S8000x8 .bf16) (x2 : Vec Ideal S128x128 .bf16)
    (x3 : Vec Ideal S8x128 .bf16) (x4 : Vec Ideal S128 .f32) (x5 : Vec Ideal S128x64 .bf16) (x6 : Vec Ideal S64 .f32)
    (p : Fin 8000) (q : Fin 64) :
    k0_pay1 (F := Ideal) x0 x1 x2 x3 x4 x5 x6 (ix2 p q)
      = Cert.GnnSpec.edgeRow (fun k => x0 (ix2 p k)) (fun k => x1 (ix2 p k)) (fun k' k => x2 (ix2 k' k))
          (fun k'' k => x3 (ix2 k'' k)) (fun k => x4 (ix1 k)) (fun k j => x5 (ix2 k j)) (fun j => x6 (ix1 j)) q := by
  unfold k0_pay1 Cert.GnnSpec.edgeRow
  simp only [shapeCast_self]
  rw [truncf_apply, addf_apply, mm_c_apply, bias64_apply]
  refine congrArg (· + x6 (ix1 q)) (Finset.sum_congr rfl fun k _ => ?_)
  rw [truncf_apply, maximumf_apply, addf_apply, addf_apply, mm_a_apply, mm_b_apply, bias128_apply, broadcast_apply]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 100 grid points: the two edge-indexed inputs and the output move
    with the point along the rows, the weights and biases stay at block zero. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row p of the gathered-feature block at point t is row 8000 t + p of the array. -/
theorem blk0_apply (c : Dev nD) (t : Fin cfg0.N) (p : Fin 8000) (k : Fin 128) (e : Fin 800000)
    (he : e.val = t.val * 8000 + p.val) :
    (iblk0 V c 0 t : Vec Ideal S8000x128 .bf16) (ix2 p k) = (V c main_v7 : S800000x128.Idx → EReal) (ix2 e k) := by
  obtain ⟨h0, h1, -⟩ := idx_facts t
  show V c main_v7 (((cfg0.win 0).blk t).view.emb (ix2 p k)) = V c main_v7 (ix2 e k)
  refine congrArg (V c main_v7) (funext fun a => Fin.ext ?_)
  match a with
  | ⟨0, _⟩ => show win0_0.index t (0 : Fin 2) * 8000 + 1 * p.val = e.val; rw [h0, he]; omega
  | ⟨1, _⟩ => show win0_0.index t (1 : Fin 2) * 128 + 1 * k.val = k.val; rw [h1]; omega

/-- Row p of the edge-attribute block at point t is row 8000 t + p of the array. -/
theorem blk1_apply (c : Dev nD) (t : Fin cfg0.N) (p : Fin 8000) (k : Fin 8) (e : Fin 800000)
    (he : e.val = t.val * 8000 + p.val) :
    (iblk0 V c 1 t : Vec Ideal S8000x8 .bf16) (ix2 p k) = (V c main_v8 : S800000x8.Idx → EReal) (ix2 e k) := by
  obtain ⟨-, -, h0, h1, -⟩ := idx_facts t
  show V c main_v8 (((cfg0.win 1).blk t).view.emb (ix2 p k)) = V c main_v8 (ix2 e k)
  refine congrArg (V c main_v8) (funext fun a => Fin.ext ?_)
  match a with
  | ⟨0, _⟩ => show win0_1.index t (0 : Fin 2) * 8000 + 1 * p.val = e.val; rw [h0, he]; omega
  | ⟨1, _⟩ => show win0_1.index t (1 : Fin 2) * 8 + 1 * k.val = k.val; rw [h1]; omega

/-- The resident blocks are the whole arrays, at every point. -/
theorem blk2_apply (c : Dev nD) (t : Fin cfg0.N) (k' : Fin 128) (k : Fin 128) :
    (iblk0 V c 2 t : Vec Ideal S128x128 .bf16) (ix2 k' k) = (V c main_v10 : S128x128.Idx → EReal) (ix2 k' k) := by
  obtain ⟨-, -, -, -, h0, h1, -⟩ := idx_facts t
  show V c main_v10 (((cfg0.win 2).blk t).view.emb (ix2 k' k)) = V c main_v10 (ix2 k' k)
  refine congrArg (V c main_v10) (funext fun a => Fin.ext ?_)
  match a with
  | ⟨0, _⟩ => show win0_2.index t (0 : Fin 2) * 128 + 1 * k'.val = k'.val; rw [h0]; omega
  | ⟨1, _⟩ => show win0_2.index t (1 : Fin 2) * 128 + 1 * k.val = k.val; rw [h1]; omega

theorem blk3_apply (c : Dev nD) (t : Fin cfg0.N) (k' : Fin 8) (k : Fin 128) :
    (iblk0 V c 3 t : Vec Ideal S8x128 .bf16) (ix2 k' k) = (V c main_v12 : S8x128.Idx → EReal) (ix2 k' k) := by
  obtain ⟨-, -, -, -, -, -, h0, h1, -⟩ := idx_facts t
  show V c main_v12 (((cfg0.win 3).blk t).view.emb (ix2 k' k)) = V c main_v12 (ix2 k' k)
  refine congrArg (V c main_v12) (funext fun a => Fin.ext ?_)
  match a with
  | ⟨0, _⟩ => show win0_3.index t (0 : Fin 2) * 8 + 1 * k'.val = k'.val; rw [h0]; omega
  | ⟨1, _⟩ => show win0_3.index t (1 : Fin 2) * 128 + 1 * k.val = k.val; rw [h1]; omega

theorem blk4_apply (c : Dev nD) (t : Fin cfg0.N) (k : Fin 128) :
    (iblk0 V c 4 t : Vec Ideal S128 .f32) (ix1 k) = (V c main_arg4 : S128.Idx → EReal) (ix1 k) := by
  obtain ⟨-, -, -, -, -, -, -, -, h0, -⟩ := idx_facts t
  show V c main_arg4 (((cfg0.win 4).blk t).view.emb (ix1 k)) = V c main_arg4 (ix1 k)
  refine congrArg (V c main_arg4) (funext fun a => Fin.ext ?_)
  match a with
  | ⟨0, _⟩ => show win0_4.index t (0 : Fin 1) * 128 + 1 * k.val = k.val; rw [h0]; omega

theorem blk5_apply (c : Dev nD) (t : Fin cfg0.N) (k : Fin 128) (j : Fin 64) :
    (iblk0 V c 5 t : Vec Ideal S128x64 .bf16) (ix2 k j) = (V c main_v13 : S128x64.Idx → EReal) (ix2 k j) := by
  obtain ⟨-, -, -, -, -, -, -, -, -, h0, h1, -⟩ := idx_facts t
  show V c main_v13 (((cfg0.win 5).blk t).view.emb (ix2 k j)) = V c main_v13 (ix2 k j)
  refine congrArg (V c main_v13) (funext fun a => Fin.ext ?_)
  match a with
  | ⟨0, _⟩ => show win0_5.index t (0 : Fin 2) * 128 + 1 * k.val = k.val; rw [h0]; omega
  | ⟨1, _⟩ => show win0_5.index t (1 : Fin 2) * 64 + 1 * j.val = j.val; rw [h1]; omega

theorem blk6_apply (c : Dev nD) (t : Fin cfg0.N) (j : Fin 64) :
    (iblk0 V c 6 t : Vec Ideal S64 .f32) (ix1 j) = (V c main_arg6 : S64.Idx → EReal) (ix1 j) := by
  obtain ⟨-, -, -, -, -, -, -, -, -, -, -, h0, -⟩ := idx_facts t
  show V c main_arg6 (((cfg0.win 6).blk t).view.emb (ix1 j)) = V c main_arg6 (ix1 j)
  refine congrArg (V c main_arg6) (funext fun a => Fin.ext ?_)
  match a with
  | ⟨0, _⟩ => show win0_6.index t (0 : Fin 1) * 64 + 1 * j.val = j.val; rw [h0]; omega

/-- Entry (p, q) of the output block at point t sits at row 8000 t + p, column q of the array. -/
theorem emb7 (t : Fin cfg0.N) (p : Fin 8000) (q : Fin 64) (e : Fin 800000) (he : e.val = t.val * 8000 + p.val) :
    (((cfg0.win 7).blk t).view.emb (ix2 p q) : S800000x64.Idx) = ix2 e q := by
  obtain ⟨-, -, -, -, -, -, -, -, -, -, -, -, h0, h1⟩ := idx_facts t
  refine funext fun a => Fin.ext ?_
  match a with
  | ⟨0, _⟩ => show win0_7.index t (0 : Fin 2) * 8000 + 1 * p.val = e.val; rw [h0, he]; omega
  | ⟨1, _⟩ => show win0_7.index t (1 : Fin 2) * 64 + 1 * q.val = q.val; rw [h1]; omega

/-- The message function takes equal rows and weights to equal values. -/
theorem edgeRow_congr {x x' : Fin 128 → EReal} {a a' : Fin 8 → EReal} {w1 w1' : Fin 128 → Fin 128 → EReal}
    {w1e w1e' : Fin 8 → Fin 128 → EReal} {b1 b1' : Fin 128 → EReal} {w2 w2' : Fin 128 → Fin 64 → EReal}
    {b2 b2' : Fin 64 → EReal} (hx : x = x') (ha : a = a') (hw1 : w1 = w1') (hw1e : w1e = w1e') (hb1 : b1 = b1')
    (hw2 : w2 = w2') (hb2 : b2 = b2') (j : Fin 64) :
    Cert.GnnSpec.edgeRow x a w1 w1e b1 w2 b2 j = Cert.GnnSpec.edgeRow x' a' w1' w1e' b1' w2' b2' j := by
  subst hx ha hw1 hw1e hb1 hw2 hb2; rfl

/-- The whole array of messages read at row e, column q. -/
theorem edgeArr_apply (x : Cert.GnnSpec.Mat 800000 128) (a : Cert.GnnSpec.Mat 800000 8) (w1 : Cert.GnnSpec.Mat 128 128)
    (w1e : Cert.GnnSpec.Mat 8 128) (b1 : Cert.GnnSpec.Vec1 128) (w2 : Cert.GnnSpec.Mat 128 64) (b2 : Cert.GnnSpec.Vec1 64)
    (e : Fin 800000) (q : Fin 64) :
    Cert.GnnSpec.edgeArr x a w1 w1e b1 w2 b2 (ix2 e q)
      = Cert.GnnSpec.edgeRow (fun k => x (ix2 e k)) (fun k => a (ix2 e k)) (fun k' k => w1 (ix2 k' k))
          (fun k'' k => w1e (ix2 k'' k)) (fun k => b1 (ix1 k)) (fun k j => w2 (ix2 k j)) (fun j => b2 (ix1 j)) q := rfl

/-- What point t writes back is block t of the array of all messages. -/
theorem flushed_eq (c : Dev nD) (t : Fin cfg0.N) :
    (dat0 (F := Ideal) V c).flushed 7 t = ((cfg0.win 7).blk t).view.read (Elt Ideal)
      (Cert.GnnSpec.edgeArr (V c main_v7) (V c main_v8) (V c main_v10) (V c main_v12) (V c main_arg4) (V c main_v13) (V c main_arg6)) := by
  show (cfg0.win 7).cut (grid0.coords t) ((dat0 V c).after 7 t) = _
  rw [after0_7]
  unfold out0_7
  rw [View.canon_unit_zero hz2]
  simp only [View.ld_unit_zero (S := S8000x128) hz2, View.ld_unit_zero (S := S8000x8) hz2, View.ld_unit_zero (S := S128x128) hz2,
    View.ld_unit_zero (S := S8x128) hz2, View.ld_unit_zero (S := S128) hz1, View.ld_unit_zero (S := S128x64) hz2,
    View.ld_unit_zero (S := S64) hz1]
  funext j
  obtain ⟨p, q, rfl⟩ : ∃ (p : Fin 8000) (q : Fin 64), j = ix2 p q := ⟨j 0, j 1, eq_ix2 j⟩
  have hp : p.val < 8000 := p.isLt
  have ht : t.val < 100 := t.isLt
  show k0_pay1 (F := Ideal) (iblk0 V c 0 t) (iblk0 V c 1 t) (iblk0 V c 2 t) (iblk0 V c 3 t) (iblk0 V c 4 t) (iblk0 V c 5 t) (iblk0 V c 6 t) (ix2 p q)
    = Cert.GnnSpec.edgeArr (V c main_v7) (V c main_v8) (V c main_v10) (V c main_v12) (V c main_arg4) (V c main_v13) (V c main_arg6)
        (((cfg0.win 7).blk t).view.emb (ix2 p q))
  rw [emb7 t p q ⟨t.val * 8000 + p.val, by omega⟩ rfl, edgeArr_apply]
  refine (pay_apply (iblk0 V c 0 t) (iblk0 V c 1 t) (iblk0 V c 2 t) (iblk0 V c 3 t) (iblk0 V c 4 t) (iblk0 V c 5 t) (iblk0 V c 6 t) p q).trans ?_
  exact edgeRow_congr (funext fun k => blk0_apply V c t p k _ rfl) (funext fun k => blk1_apply V c t p k _ rfl)
    (funext fun k' => funext fun k => blk2_apply V c t k' k) (funext fun k'' => funext fun k => blk3_apply V c t k'' k)
    (funext fun k => blk4_apply V c t k) (funext fun k => funext fun j => blk5_apply V c t k j)
    (funext fun j => blk6_apply V c t j) q

/-- An index of the array is in point t's block iff each coordinate is in the block's range on its axis. -/
theorem mem_blk (t : Fin cfg0.N) (i : S800000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v14).slice (win0_7.rect t)).set ↔ _
  rw [View.set_slice_whole, Rect.mem_set_unit]
  exact Iff.rfl

/-- Row r of the array is written back by point r / 8000. -/
theorem cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 100 := N_0
  refine ⟨⟨(i 0).val / 8000, by rw [hN]; omega⟩, flush0_7 _, ?_⟩
  rw [mem_blk]
  obtain ⟨-, -, -, -, -, -, -, -, -, -, -, -, h0, h1⟩ := idx_facts ⟨(i 0).val / 8000, by rw [hN]; omega⟩
  intro a
  match a with
  | ⟨0, _⟩ =>
    show win0_7.index _ (0 : Fin 2) * 8000 ≤ (i 0).val ∧ (i 0).val < win0_7.index _ (0 : Fin 2) * 8000 + 8000
    rw [h0]; show (i 0).val / 8000 * 8000 ≤ (i 0).val ∧ (i 0).val < (i 0).val / 8000 * 8000 + 8000; omega
  | ⟨1, _⟩ =>
    show win0_7.index _ (1 : Fin 2) * 64 ≤ (i 1).val ∧ (i 1).val < win0_7.index _ (1 : Fin 2) * 64 + 64
    rw [h1]; omega

/-- After the edge region, its output array holds every edge's message. -/
theorem edge_arr (c : Dev nD) :
    (dat0 (F := Ideal) V c).arrAt 7 cfg0.N
      = Cert.GnnSpec.edgeArr (V c main_v7) (V c main_v8) (V c main_v10) (V c main_v12) (V c main_arg4) (V c main_v13) (V c main_arg6) :=
  (dat0 (F := Ideal) V c).arrAt_eq_of_cover 7 _ (fun t _ => flushed_eq V c t) cover

end Cert.KernelIdeal.EdgeValue

end
-- ==== Proof.NodeRegion.lean ====
/-
  The node kernel's output array, whole: entry (n, j) of what the 10 grid points write back is node n's new
  feature at column j, a function of row n of the two node-indexed operands and of the resident weights.

  The body's arithmetic on a block of 5000 rows is read stage by stage at an entry (p, q): the update perceptron's
  two contractions as sums over 128 terms, the biases and the gain as row vectors laid over the rows, the two lane
  sums as sums over a row's 64 entries, the mean and the reciprocal square root kept as a column and laid over the
  columns. Row p of the block at point t is row t * 5000 + p of the node-indexed arrays, the resident operands are
  their whole arrays at every point, and row r of the output is covered by point r / 5000.
-/
import proofs.«420053_j7799660609778_2_alg».proof.Proof.Gen.KernelIdeal.Frame
import proofs.«420053_j7799660609778_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-! ## Layout operations at an index: a column kept by a row reduction -/

section Layout
variable {α : Type}

/-- A vector of `a` entries viewed as an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions at an index -/

theorem lhs_w1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_w1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_w1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_w1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first layer's product into the zero splat, at `(p, q)`: the sum over the 128 inputs. -/
theorem matmul_w1_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_w1_0 _ _
    | ⟨1, _⟩ => exact (lhs_w1_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_w1_0 _ _).trans hk
    | ⟨1, _⟩ => exact rhs_w1_1 _ _)
  rw [el, er]

theorem lhs_w2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_w2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_w2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_w2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The second layer's product into the zero splat, at `(p, q)`: the sum over the 128 hidden units. -/
theorem matmul_w2_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_w2_0 _ _
    | ⟨1, _⟩ => exact (lhs_w2_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_w2_0 _ _).trans hk
    | ⟨1, _⟩ => exact rhs_w2_1 _ _)
  rw [el, er]

/-! ## A row's sum over its 64 entries -/

/-- The lane sum of a 5000 × 64 block at row `p` is the sum of the row's 64 entries. -/
theorem rowSum_apply (src : FVec Ideal S5000x64 .f32) (hφ : FKind.Formats .f32)
    (hacc : (0x00000000#32 : BitVec 32) = 0x00000000#32) (p : Fin 5000) :
    multiReduction .add [1] S5000 src 0x00000000#32 reduces_S5000x64_S5000 hφ hacc (ix1 p) = ∑ k : Fin 64, src (ix2 p k) := by
  refine (Ideal.multiReduction_add_single src 0x00000000#32 reduces_S5000x64_S5000 hφ hacc (ix1 p)).trans ?_
  refine Finset.sum_congr rfl fun k _ => congrArg src ?_
  funext a; apply Fin.ext
  match a with
  | ⟨0, _⟩ => rfl
  | ⟨1, _⟩ => rfl

/-! ## The body's arithmetic on a block of 5000 rows, stage by stage -/

/-- A 64-entry row vector laid over the 5000 rows of a block reads, at `(p, q)`, the vector at `q`. -/
theorem row64_apply (v : FVec Ideal S64 .f32) (p : Fin 5000) (q : Fin 64) :
    broadcastTo S5000x64 (shapeCast S1x64 v shapeCasts_S64_S1x64) broadcasts_S1x64_S5000x64 (ix2 p q) = v (ix1 q) :=
  (broadcastTo_1b_ab_apply _ broadcasts_S1x64_S5000x64 p q).trans (shapeCast_a_1a_apply v shapeCasts_S64_S1x64 0 q)

/-- A 128-entry row vector laid over the 5000 rows of a block reads, at `(p, k)`, the vector at `k`. -/
theorem row128_apply (v : FVec Ideal S128 .f32) (p : Fin 5000) (k : Fin 128) :
    broadcastTo S5000x128 (shapeCast S1x128 v shapeCasts_S128_S1x128) broadcasts_S1x128_S5000x128 (ix2 p k) = v (ix1 k) :=
  (broadcastTo_1b_ab_apply _ broadcasts_S1x128_S5000x128 p k).trans (shapeCast_a_1a_apply v shapeCasts_S128_S1x128 0 k)

/-- A per-row value kept as a column and laid over the 64 columns reads, at `(p, q)`, the value of row `p`. -/
theorem col_apply (v : FVec Ideal S5000x1 .f32) (p : Fin 5000) (q : Fin 64) :
    broadcastTo S5000x64 v broadcasts_S5000x1_S5000x64 (ix2 p q) = v (ix2 p (0 : Fin 1)) :=
  broadcastTo_a1_ab_apply v broadcasts_S5000x1_S5000x64 p q

/-- The hidden layer of the update perceptron on a block: product with the first weights, bias, maximum with zero. -/
def hiddenBlk (x1 : FVec Ideal S5000x128 .bf16) (x2 : FVec Ideal S128x128 .bf16) (x3 : FVec Ideal S128 .f32) : FVec Ideal S5000x128 .bf16 :=
  truncf .bf16 (maximumf (addf (matmul dot_S5000x128_S128x128_S5000x128_1_0_0_1_n_n none (shapeCast S5000x128 x1 shapeCasts_S5000x128_S5000x128) (shapeCast S128x128 x2 shapeCasts_S128x128_S128x128) (constant (F := Ideal) S5000x128 .f32 0x00000000#32))
    (broadcastTo S5000x128 (shapeCast S1x128 x3 shapeCasts_S128_S1x128) broadcasts_S1x128_S5000x128)) (broadcast S5000x128 (Scalar.ofBits (F := Ideal) .f32 0x00000000#32))) bitsLt_bf16_f32

theorem hiddenBlk_apply (x1 : FVec Ideal S5000x128 .bf16) (x2 : FVec Ideal S128x128 .bf16) (x3 : FVec Ideal S128 .f32) (p : Fin 5000) (k : Fin 128) :
    hiddenBlk x1 x2 x3 (ix2 p k) = max ((∑ k' : Fin 128, x1 (ix2 p k') * x2 (ix2 k' k)) + x3 (ix1 k)) Cert.GnnSpec.z0 := by
  unfold hiddenBlk
  rw [shapeCast_self, shapeCast_self, truncf_apply, maximumf_apply, addf_apply, matmul_w1_apply, row128_apply]
  rfl

/-- A block's rows before the layer norm: the feature rows plus the update perceptron's output. -/
def preBlk (x0 : FVec Ideal S5000x64 .f32) (x1 : FVec Ideal S5000x128 .bf16) (x2 : FVec Ideal S128x128 .bf16) (x3 : FVec Ideal S128 .f32)
    (x4 : FVec Ideal S128x64 .bf16) (x5 : FVec Ideal S64 .f32) : FVec Ideal S5000x64 .f32 :=
  addf x0 (addf (matmul dot_S5000x128_S128x64_S5000x64_1_0_0_1_n_n none (hiddenBlk x1 x2 x3) (shapeCast S128x64 x4 shapeCasts_S128x64_S128x64) (constant (F := Ideal) S5000x64 .f32 0x00000000#32))
    (broadcastTo S5000x64 (shapeCast S1x64 x5 shapeCasts_S64_S1x64) broadcasts_S1x64_S5000x64))

theorem preBlk_apply (x0 : FVec Ideal S5000x64 .f32) (x1 : FVec Ideal S5000x128 .bf16) (x2 : FVec Ideal S128x128 .bf16) (x3 : FVec Ideal S128 .f32)
    (x4 : FVec Ideal S128x64 .bf16) (x5 : FVec Ideal S64 .f32) (p : Fin 5000) (q : Fin 64) :
    preBlk x0 x1 x2 x3 x4 x5 (ix2 p q)
      = Cert.GnnSpec.nodeRes (fun j => x0 (ix2 p j)) (fun k => x1 (ix2 p k)) (fun k' k => x2 (ix2 k' k)) (fun k => x3 (ix1 k))
          (fun k j => x4 (ix2 k j)) (fun j => x5 (ix1 j)) q := by
  unfold preBlk Cert.GnnSpec.nodeRes
  rw [shapeCast_self, addf_apply, addf_apply, matmul_w2_apply, row64_apply]
  simp only [hiddenBlk_apply]

/-- The mean of each row of a block, kept as a column. -/
def meanBlk (r : FVec Ideal S5000x64 .f32) : FVec Ideal S5000x1 .f32 :=
  divf (shapeCast S5000x1 (multiReduction .add [1] S5000 r 0x00000000#32 reduces_S5000x64_S5000 (.inl rfl) rfl) shapeCasts_S5000_S5000x1)
    (broadcast S5000x1 (Scalar.ofBits (F := Ideal) .f32 0x42800000#32))

theorem meanBlk_apply (r : FVec Ideal S5000x64 .f32) (p : Fin 5000) :
    meanBlk r (ix2 p (0 : Fin 1)) = Cert.GnnSpec.rowMean (fun j => r (ix2 p j)) := by
  unfold meanBlk Cert.GnnSpec.rowMean
  rw [divf_apply, shapeCast_a_a1_apply, rowSum_apply]
  rfl

/-- A block's rows, each less its mean. -/
def centredBlk (r : FVec Ideal S5000x64 .f32) : FVec Ideal S5000x64 .f32 :=
  subf r (broadcastTo S5000x64 (meanBlk r) broadcasts_S5000x1_S5000x64)

theorem centredBlk_apply (r : FVec Ideal S5000x64 .f32) (p : Fin 5000) (q : Fin 64) :
    centredBlk r (ix2 p q) = r (ix2 p q) - Cert.GnnSpec.rowMean (fun j => r (ix2 p j)) := by
  unfold centredBlk
  rw [subf_apply, col_apply, meanBlk_apply]

/-- The reciprocal square root of each centred row's mean square plus the epsilon word, kept as a column. -/
def scaleBlk (d : FVec Ideal S5000x64 .f32) : FVec Ideal S5000x1 .f32 :=
  rsqrt (addf (meanBlk (mulf d d)) (broadcast S5000x1 (Scalar.ofBits (F := Ideal) .f32 0x3727C5AC#32)))

theorem scaleBlk_apply (d : FVec Ideal S5000x64 .f32) (p : Fin 5000) :
    scaleBlk d (ix2 p (0 : Fin 1))
      = Ideal.rsqrt (Cert.GnnSpec.rowMean (fun j => d (ix2 p j) * d (ix2 p j)) + Ideal.ofBits .f32 0x3727C5AC#32) := by
  unfold scaleBlk
  show Ideal.rsqrt (meanBlk (mulf d d) (ix2 p (0 : Fin 1)) + Ideal.ofBits .f32 0x3727C5AC#32) = _
  rw [meanBlk_apply]
  rfl

/-- A block's rows, each centred and scaled. -/
def normBlk (r : FVec Ideal S5000x64 .f32) : FVec Ideal S5000x64 .f32 :=
  mulf (centredBlk r) (broadcastTo S5000x64 (scaleBlk (centredBlk r)) broadcasts_S5000x1_S5000x64)

theorem normBlk_apply (r : FVec Ideal S5000x64 .f32) (p : Fin 5000) (q : Fin 64) :
    normBlk r (ix2 p q)
      = (r (ix2 p q) - Cert.GnnSpec.rowMean (fun j => r (ix2 p j)))
        * Ideal.rsqrt (Cert.GnnSpec.rowMean (fun j' => (r (ix2 p j') - Cert.GnnSpec.rowMean (fun j => r (ix2 p j))) * (r (ix2 p j') - Cert.GnnSpec.rowMean (fun j => r (ix2 p j))))
            + Ideal.ofBits .f32 0x3727C5AC#32) := by
  unfold normBlk
  rw [mulf_apply, col_apply, scaleBlk_apply]
  simp only [centredBlk_apply]

/-- The body's first payload is these stages composed. -/
theorem pay2_eq (x0 : Vec Ideal S5000x64 .f32) (x1 : Vec Ideal S5000x128 .bf16) (x2 : Vec Ideal S128x128 .bf16) (x3 : Vec Ideal S128 .f32)
    (x4 : Vec Ideal S128x64 .bf16) (x5 : Vec Ideal S64 .f32) :
    k1_pay2 (F := Ideal) x0 x1 x2 x3 x4 x5 = normBlk (preBlk x0 x1 x2 x3 x4 x5) := rfl

/-- What the body stores, at `(p, q)`: the new feature of the block's row `p` at column `q`. -/
theorem payload_apply (x0 : Vec Ideal S5000x64 .f32) (x1 : Vec Ideal S5000x128 .bf16) (x2 : Vec Ideal S128x128 .bf16) (x3 : Vec Ideal S128 .f32)
    (x4 : Vec Ideal S128x64 .bf16) (x5 x6 x7 : Vec Ideal S64 .f32) (p : Fin 5000) (q : Fin 64) :
    k1_pay1 (F := Ideal) (k1_pay2 (F := Ideal) x0 x1 x2 x3 x4 x5) x6 x7 (ix2 p q)
      = Cert.GnnSpec.nodeRow (fun j => x0 (ix2 p j)) (fun k => x1 (ix2 p k)) (fun k' k => x2 (ix2 k' k)) (fun k => x3 (ix1 k))
          (fun k j => x4 (ix2 k j)) (fun j => x5 (ix1 j)) (fun j => x6 (ix1 j)) (fun j => x7 (ix1 j)) q := by
  rw [pay2_eq]
  unfold k1_pay1 Cert.GnnSpec.nodeRow Cert.GnnSpec.layerNorm
  rw [addf_apply, mulf_apply, normBlk_apply, row64_apply, row64_apply]
  simp only [preBlk_apply]

/-! ## From the blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 10 grid points: the three row-blocked windows sit at row block `t`, the resident ones at
    block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

/-- Row `p` of the feature block at point `t` is row `t * 5000 + p` of the feature array. -/
theorem blk0_apply (c : Dev nD) (t : Fin cfg1.N) (p : Fin 5000) (j : Fin 64) (n : Fin 50000) (hn : n.val = t.val * 5000 + p.val) :
    iblk1 V c 0 t (ix2 p j) = V c main_arg0 (ix2 n j) := by
  obtain ⟨e0, e1, -⟩ := index_facts t
  show V c main_arg0 (((cfg1.win 0).blk t).view.emb (ix2 p j)) = V c main_arg0 (ix2 n j)
  refine congrArg (V c main_arg0) (funext fun a => Fin.ext ?_)
  match a with
  | ⟨0, _⟩ => show win1_0.index t (0 : Fin 2) * 5000 + 1 * p.val = n.val; omega
  | ⟨1, _⟩ => show win1_0.index t (1 : Fin 2) * 64 + 1 * j.val = j.val; omega

/-- Row `p` of the update-input block at point `t` is row `t * 5000 + p` of the update-input array. -/
theorem blk1_apply (c : Dev nD) (t : Fin cfg1.N) (p : Fin 5000) (k : Fin 128) (n : Fin 50000) (hn : n.val = t.val * 5000 + p.val) :
    iblk1 V c 1 t (ix2 p k) = V c main_v20 (ix2 n k) := by
  obtain ⟨-, -, e0, e1, -⟩ := index_facts t
  show V c main_v20 (((cfg1.win 1).blk t).view.emb (ix2 p k)) = V c main_v20 (ix2 n k)
  refine congrArg (V c main_v20) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The resident first weights are their whole array at every point. -/
theorem blk2_apply (c : Dev nD) (t : Fin cfg1.N) (k' k : Fin 128) :
    iblk1 V c 2 t (ix2 k' k) = V c main_v21 (ix2 k' k) := by
  obtain ⟨-, -, -, -, e0, e1, -⟩ := index_facts t
  show V c main_v21 (((cfg1.win 2).blk t).view.emb (ix2 k' k)) = V c main_v21 (ix2 k' k)
  refine congrArg (V c main_v21) (funext fun a => Fin.ext ?_)
  match a with
  | ⟨0, _⟩ => show win1_2.index t (0 : Fin 2) * 128 + 1 * k'.val = k'.val; omega
  | ⟨1, _⟩ => show win1_2.index t (1 : Fin 2) * 128 + 1 * k.val = k.val; omega

/-- The resident first bias is its whole array at every point. -/
theorem blk3_apply (c : Dev nD) (t : Fin cfg1.N) (k : Fin 128) :
    iblk1 V c 3 t (ix1 k) = V c main_arg8 (ix1 k) := by
  obtain ⟨-, -, -, -, -, -, e0, -⟩ := index_facts t
  show V c main_arg8 (((cfg1.win 3).blk t).view.emb (ix1 k)) = V c main_arg8 (ix1 k)
  refine congrArg (V c main_arg8) (funext fun a => Fin.ext ?_)
  match a with
  | ⟨0, _⟩ => show win1_3.index t (0 : Fin 1) * 128 + 1 * k.val = k.val; omega

/-- The resident second weights are their whole array at every point. -/
theorem blk4_apply (c : Dev nD) (t : Fin cfg1.N) (k : Fin 128) (j : Fin 64) :
    iblk1 V c 4 t (ix2 k j) = V c main_v22 (ix2 k j) := by
  obtain ⟨-, -, -, -, -, -, -, e0, e1, -⟩ := index_facts t
  show V c main_v22 (((cfg1.win 4).blk t).view.emb (ix2 k j)) = V c main_v22 (ix2 k j)
  refine congrArg (V c main_v22) (funext fun a => Fin.ext ?_)
  match a with
  | ⟨0, _⟩ => show win1_4.index t (0 : Fin 2) * 128 + 1 * k.val = k.val; omega
  | ⟨1, _⟩ => show win1_4.index t (1 : Fin 2) * 64 + 1 * j.val = j.val; omega

/-- The resident second bias is its whole array at every point. -/
theorem blk5_apply (c : Dev nD) (t : Fin cfg1.N) (j : Fin 64) :
    iblk1 V c 5 t (ix1 j) = V c main_arg10 (ix1 j) := by
  obtain ⟨-, -, -, -, -, -, -, -, -, e0, -⟩ := index_facts t
  show V c main_arg10 (((cfg1.win 5).blk t).view.emb (ix1 j)) = V c main_arg10 (ix1 j)
  refine congrArg (V c main_arg10) (funext fun a => Fin.ext ?_)
  match a with
  | ⟨0, _⟩ => show win1_5.index t (0 : Fin 1) * 64 + 1 * j.val = j.val; omega

/-- The resident gain is its whole array at every point. -/
theorem blk6_apply (c : Dev nD) (t : Fin cfg1.N) (j : Fin 64) :
    iblk1 V c 6 t (ix1 j) = V c main_arg11 (ix1 j) := by
  obtain ⟨-, -, -, -, -, -, -, -, -, -, e0, -⟩ := index_facts t
  show V c main_arg11 (((cfg1.win 6).blk t).view.emb (ix1 j)) = V c main_arg11 (ix1 j)
  refine congrArg (V c main_arg11) (funext fun a => Fin.ext ?_)
  match a with
  | ⟨0, _⟩ => show win1_6.index t (0 : Fin 1) * 64 + 1 * j.val = j.val; omega

/-- The resident norm bias is its whole array at every point. -/
theorem blk7_apply (c : Dev nD) (t : Fin cfg1.N) (j : Fin 64) :
    iblk1 V c 7 t (ix1 j) = V c main_arg12 (ix1 j) := by
  obtain ⟨-, -, -, -, -, -, -, -, -, -, -, e0, -⟩ := index_facts t
  show V c main_arg12 (((cfg1.win 7).blk t).view.emb (ix1 j)) = V c main_arg12 (ix1 j)
  refine congrArg (V c main_arg12) (funext fun a => Fin.ext ?_)
  match a with
  | ⟨0, _⟩ => show win1_7.index t (0 : Fin 1) * 64 + 1 * j.val = j.val; omega

/-- Entry `(p, q)` of the output block at point `t` sits at `(t * 5000 + p, q)` of the output array. -/
theorem emb8_apply (t : Fin cfg1.N) (p : Fin 5000) (q : Fin 64) (n : Fin 50000) (hn : n.val = t.val * 5000 + p.val) :
    ((cfg1.win 8).blk t).view.emb (ix2 p q) = ix2 n q := by
  obtain ⟨-, -, -, -, -, -, -, -, -, -, -, -, e0, e1⟩ := index_facts t
  refine funext fun a => Fin.ext ?_
  match a with
  | ⟨0, _⟩ => show win1_8.index t (0 : Fin 2) * 5000 + 1 * p.val = n.val; omega
  | ⟨1, _⟩ => show win1_8.index t (1 : Fin 2) * 64 + 1 * q.val = q.val; omega

/-- All 50000 new node rows, of the arrays as the region finds them. -/
abbrev newRows (c : Dev nD) : Cert.GnnSpec.Mat 50000 64 :=
  Cert.GnnSpec.nodeArr (V c main_arg0) (V c main_v20) (V c main_v21) (V c main_arg8) (V c main_v22) (V c main_arg10) (V c main_arg11) (V c main_arg12)

/-- What point `t` writes back is block `t` of the new node rows. -/
theorem flushed8_eq (c : Dev nD) (t : Fin cfg1.N) :
    (dat1 (F := Ideal) V c).flushed 8 t = ((cfg1.win 8).blk t).view.read (Elt Ideal) (newRows V c) := by
  show (cfg1.win 8).cut (grid1.coords t) ((dat1 (F := Ideal) V c).after 8 t) = _
  rw [after1_8]
  unfold out1_8
  rw [View.canon_unit_zero zeros2]
  simp only [View.ld_unit_zero (S := S5000x64) zeros2, View.ld_unit_zero (S := S5000x128) zeros2, View.ld_unit_zero (S := S128x128) zeros2,
    View.ld_unit_zero (S := S128) zeros1, View.ld_unit_zero (S := S128x64) zeros2, View.ld_unit_zero (S := S64) zeros1]
  funext j
  obtain ⟨p, q, rfl⟩ : ∃ (p : Fin 5000) (q : Fin 64), j = ix2 p q := ⟨j 0, j 1, eq_ix2 j⟩
  have ht : t.val < 10 := lt_of_lt_of_eq t.isLt N_1
  have hn : t.val * 5000 + p.val < 50000 := by have := p.isLt; omega
  show k1_pay1 (F := Ideal) (k1_pay2 (F := Ideal) (iblk1 V c 0 t) (iblk1 V c 1 t) (iblk1 V c 2 t) (iblk1 V c 3 t) (iblk1 V c 4 t) (iblk1 V c 5 t)) (iblk1 V c 6 t) (iblk1 V c 7 t) (ix2 p q)
    = newRows V c (((cfg1.win 8).blk t).view.emb (ix2 p q))
  refine (payload_apply (iblk1 V c 0 t) (iblk1 V c 1 t) (iblk1 V c 2 t) (iblk1 V c 3 t) (iblk1 V c 4 t) (iblk1 V c 5 t) (iblk1 V c 6 t) (iblk1 V c 7 t) p q).trans ?_
  rw [emb8_apply t p q ⟨t.val * 5000 + p.val, hn⟩ rfl]
  have e0 : (fun j => iblk1 V c 0 t (ix2 p j)) = fun j => V c main_arg0 (ix2 (⟨t.val * 5000 + p.val, hn⟩ : Fin 50000) j) :=
    funext fun j => blk0_apply V c t p j ⟨t.val * 5000 + p.val, hn⟩ rfl
  have e1 : (fun k => iblk1 V c 1 t (ix2 p k)) = fun k => V c main_v20 (ix2 (⟨t.val * 5000 + p.val, hn⟩ : Fin 50000) k) :=
    funext fun k => blk1_apply V c t p k ⟨t.val * 5000 + p.val, hn⟩ rfl
  have e2 : (fun k' k => iblk1 V c 2 t (ix2 k' k)) = fun k' k => V c main_v21 (ix2 k' k) :=
    funext fun k' => funext fun k => blk2_apply V c t k' k
  have e3 : (fun k => iblk1 V c 3 t (ix1 k)) = fun k => V c main_arg8 (ix1 k) := funext fun k => blk3_apply V c t k
  have e4 : (fun k j => iblk1 V c 4 t (ix2 k j)) = fun k j => V c main_v22 (ix2 k j) :=
    funext fun k => funext fun j => blk4_apply V c t k j
  have e5 : (fun j => iblk1 V c 5 t (ix1 j)) = fun j => V c main_arg10 (ix1 j) := funext fun j => blk5_apply V c t j
  have e6 : (fun j => iblk1 V c 6 t (ix1 j)) = fun j => V c main_arg11 (ix1 j) := funext fun j => blk6_apply V c t j
  have e7 : (fun j => iblk1 V c 7 t (ix1 j)) = fun j => V c main_arg12 (ix1 j) := funext fun j => blk7_apply V c t j
  rw [e0, e1, e2, e3, e4, e5, e6, e7]
  rfl

/-- An index of the output array is in point `t`'s block iff each coordinate is in the block's range on its axis. -/
theorem mem_blk8 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v23).slice (win1_8.rect t)).set ↔ _
  rw [View.set_slice_whole, Rect.mem_set_unit]
  exact Iff.rfl

/-- Row `r` of the output array is covered by point `r / 5000`. -/
theorem cover8 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  have ht : (i 0).val / 5000 < cfg1.N := lt_of_lt_of_eq (show (i 0).val / 5000 < 10 by omega) N_1.symm
  obtain ⟨-, -, -, -, -, -, -, -, -, -, -, -, e0, e1⟩ := index_facts ⟨(i 0).val / 5000, ht⟩
  refine ⟨⟨(i 0).val / 5000, ht⟩, flush1_8 _, ?_⟩
  rw [mem_blk8]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, ht⟩ (1 : Fin 2) * 64 ≤ (i 1).val ∧ (i 1).val < win1_8.index ⟨(i 0).val / 5000, ht⟩ (1 : Fin 2) * 64 + 64
    rw [e1]
    omega

/-- After the node region, its output array holds every node's new feature row. -/
theorem node_arr (c : Dev nD) :
    (dat1 (F := Ideal) V c).arrAt 8 cfg1.N
      = Cert.GnnSpec.nodeArr (V c main_arg0) (V c main_v20) (V c main_v21) (V c main_arg8) (V c main_v22) (V c main_arg10) (V c main_arg11) (V c main_arg12) :=
  (dat1 (F := Ideal) V c).arrAt_eq_of_cover 8 (newRows V c) (fun t _ => flushed8_eq V c t) cover8

end Cert.KernelIdeal.NodeValue

end
-- ==== Proof.KernelHost.lean ====
/-
  The host-side values of the idealized kernel program, as functions of the argument arrays.

  From the 2 x 800000 index array: its two rows (sources, destinations); an index column wrapped the way
  a negative index is wrapped (50000 added when the index is negative); the test that a wrapped index lies in
  [0, 49999]; the rows of the feature table taken at the wrapped indices where the test passes and the
  not-a-number word elsewhere. Then the 128-column slab of the source rows beside the destination rows, the sum of
  the messages into their destination rows, and the 128-column slab of the features beside that sum.
-/
import proofs.«420053_j7799660609778_2_alg».proof.Proof.Gen.KernelIdeal
import Idealize.ShloMosaic.PureOps.Ideal

noncomputable section

namespace Cert.KernelIdeal.HostValue

open Cert.KernelIdeal Cert.KernelIdeal.Gen Idealize.ShloMosaic

/-- Arrays of extended reals, of index words, and of truth bits, over a shape. -/
abbrev FA (S : Shape) : Type := FVec Ideal S .f32
abbrev HA (S : Shape) : Type := FVec Ideal S .bf16
abbrev IA (S : Shape) : Type := IVec S 32
abbrev BA (S : Shape) : Type := IVec S 1

/-- Row 0 of the index array: each edge's source. -/
def srcIdx (x1 : IA S2x800000) : IA S800000 :=
  shapeCast S800000 (extractStridedSlice S1x800000 ![0, 0] x1 slices_S2x800000_S1x800000_0_0) shapeCasts_S1x800000_S800000

/-- Row 1 of the index array: each edge's destination. -/
def dstIdx (x1 : IA S2x800000) : IA S800000 :=
  shapeCast S800000 (extractStridedSlice S1x800000 ![1, 0] x1 slices_S2x800000_S1x800000_1_0) shapeCasts_S1x800000_S800000

/-- An index column with 50000 added to each negative index. -/
def wrapIdx (s : IA S800000) : IA S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge and column: whether the wrapped index lies in [0, 49999]. -/
def inRange (w : IA S800000x1) : BA S800000x64 :=
  broadcastInDim S800000x64 ![0] bcast_S800000_S800000x64_0
    (Host.reduce IntOp.andi
      (andi (cmpi .sge w (broadcastInDim S800000x1 ![] bcast_S_S800000x1 (constantI S_ 32 0#32)))
        (cmpi .sle w (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The feature table's rows at an index column (an index outside the table is clamped into it). -/
def gathered (x0 : FA S50000x64) (w : IA S800000x1) : FA S800000x64 :=
  Host.gather gather_S50000x64_S800000x1_S800000x64_1_0_n_n_0_1_164 x0 w

/-- The feature table's rows taken at an index vector: the gathered row where the wrapped index is in range, the
    not-a-number word elsewhere. -/
def takeRows (x0 : FA S50000x64) (s : IA S800000) : FA S800000x64 :=
  select (inRange (wrapIdx s)) (gathered x0 (wrapIdx s))
    (broadcastInDim S800000x64 ![] bcast_S_S800000x64 (constant (F := Ideal) S_ .f32 0x7FC00000#32))

/-- The edge kernel's first operand: source rows beside destination rows, 128 columns. -/
def slab (x0 : FA S50000x64) (x1 : IA S2x800000) : HA S800000x128 :=
  truncf (F := Ideal) .bf16 (concatenate S800000x128 1 [⟨S800000x64, takeRows x0 (srcIdx x1)⟩, ⟨S800000x64, takeRows x0 (dstIdx x1)⟩]
    concatenates_S800000x64_S800000x64_S800000x128_d1) bitsLt_bf16_f32

/-- The messages summed into their destination rows. -/
def aggOf (x1 : IA S2x800000) (msgs : HA S800000x64) : FA S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dstIdx x1))
    (extf (F := Ideal) .f32 msgs bitsLt_bf16_f32)

/-- The node kernel's second operand: the features beside the summed messages, 128 columns. -/
def nodeIn (x0 : FA S50000x64) (x1 : IA S2x800000) (msgs : HA S800000x64) : HA S50000x128 :=
  truncf (F := Ideal) .bf16 (concatenate S50000x128 1 [⟨S50000x64, x0⟩, ⟨S50000x64, aggOf x1 msgs⟩]
    concatenates_S50000x64_S50000x64_S50000x128_d1) bitsLt_bf16_f32

end Cert.KernelIdeal.HostValue

end
-- ==== Proof.HostValues.lean ====
/-
  What each operand of the two kernels holds when its region is entered, as a function of the argument arrays:
  the host operations before the edge region and between the two regions, read back from the launch memory.
-/
import proofs.«420053_j7799660609778_2_alg».proof.Proof.Gen.KernelIdeal.Frame
import proofs.«420053_j7799660609778_2_alg».proof.Proof.KernelHost
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-! ## A typed reference's two transports undo each other -/

theorem ofBuf_toBuf {Val : EltTy → Type} {T : BufTy} (x : TRef sig T) (v : T.Contents Val) : x.ofBuf (x.toBuf v) = v := by
  obtain ⟨r, h, _, _⟩ := x; subst h; rfl

theorem toBuf_ofBuf {Val : EltTy → Type} {T : BufTy} (x : TRef sig T) (v : x.ref.ty.Contents Val) : x.toBuf (x.ofBuf v) = v := by
  obtain ⟨r, h, _, _⟩ := x; subst h; rfl

/-! ## The references each stretch of host operations writes -/

/-- What the two rows of the index array are written to. -/
abbrev refs0 : List (Ref sig .tc) := [main_v0, main_v1, main_v2, main_v3]
theorem writes0 : (hostOps0 : List (HloOp τ sig (Elt Ideal))).Forall fun op => op.writes ⊆ ((refs0).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- What taking the source rows writes. -/
abbrev refs0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes0_1 : (hostOps0_1 : List (HloOp τ sig (Elt Ideal))).Forall fun op => op.writes ⊆ ((refs0_1).map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- What taking the destination rows writes. -/
abbrev refs0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
theorem writes0_2 : (hostOps0_2 : List (HloOp τ sig (Elt Ideal))).Forall fun op => op.writes ⊆ ((refs0_2).map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- What the stretch before the edge region writes. -/
abbrev refs0_3 : List (Ref sig .tc) := [main_v6, main_v7, main_v8, main_v9, main_v10, main_v11, main_v12, main_v13]
theorem writes0_3 : (hostOps0_3 : List (HloOp τ sig (Elt Ideal))).Forall fun op => op.writes ⊆ ((refs0_3).map (Proc.devRef (τ := τ) .tc)).toFinset := by
  simp only [hostOps0_3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- What the stretch between the two regions writes. -/
abbrev refs1 : List (Ref sig .tc) := [main_v15, main_cst, main_v16, main_v17, main_v18, main_v19, main_v20, main_v21, main_v22]
theorem writes1 : (hostOps1 : List (HloOp τ sig (Elt Ideal))).Forall fun op => op.writes ⊆ ((refs1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-! ## Each stretch's results, from any contents, over any float model -/

section Stretches

variable {F : FTy → Type} [FloatOps F]

/-- Taking rows, over any float model. -/
def takeRowsOf (x0 : FVec F S50000x64 .f32) (s : IVec S800000 32) : FVec F S800000x64 .f32 :=
  select (inRange (wrapIdx s)) (Host.gather gather_S50000x64_S800000x1_S800000x64_1_0_n_n_0_1_164 x0 (wrapIdx s))
    (broadcastInDim S800000x64 ![] bcast_S_S800000x64 (constant (F := F) S_ .f32 0x7FC00000#32))

/-- Two row blocks side by side, rounded to the short format, over any float model. -/
def slabOf (a b : FVec F S800000x64 .f32) : FVec F S800000x128 .bf16 :=
  truncf (F := F) .bf16 (concatenate S800000x128 1 [⟨S800000x64, a⟩, ⟨S800000x64, b⟩]
    concatenates_S800000x64_S800000x64_S800000x128_d1) bitsLt_bf16_f32

/-- The features beside the messages summed into the rows an index vector names, over any float model. -/
def nodeInOf (x0 : FVec F S50000x64 .f32) (d : IVec S800000 32) (msgs : FVec F S800000x64 .bf16) : FVec F S50000x128 .bf16 :=
  truncf (F := F) .bf16 (concatenate S50000x128 1 [⟨S50000x64, x0⟩, ⟨S50000x64,
      Host.scatterAdd (F := F) scatter_S50000x64_S800000x1_S800000x64_1_0_0_1
        (broadcastInDim S50000x64 ![] bcast_S_S50000x64 (constant (F := F) S_ .f32 0x00000000#32))
        (broadcastInDim S800000x1 ![0] bcast_S800000_S800000x1_0 d)
        (extf (F := F) .f32 msgs bitsLt_bf16_f32)⟩]
    concatenates_S50000x64_S50000x64_S50000x128_d1) bitsLt_bf16_f32

/-- At a literal reference whose buffer type is the carried type, the transports are the identity. -/
theorem toBuf_v4 (h1 h2 h3) (v : (⟨S800000x64, .f32⟩ : BufTy).Contents (Elt F)) :
    (TRef.of main_v4 h1 h2 h3 : TRef sig ⟨S800000x64, .f32⟩).toBuf v = v := rfl
theorem toBuf_v5 (h1 h2 h3) (v : (⟨S800000x64, .f32⟩ : BufTy).Contents (Elt F)) :
    (TRef.of main_v5 h1 h2 h3 : TRef sig ⟨S800000x64, .f32⟩).toBuf v = v := rfl
theorem ofBuf_v1 (h1 h2 h3) (v : (main_v1 : Ref sig .tc).ty.Contents (Elt F)) :
    (TRef.of main_v1 h1 h2 h3 : TRef sig ⟨S800000, .i32⟩).ofBuf v = v := rfl
theorem ofBuf_v3 (h1 h2 h3) (v : (main_v3 : Ref sig .tc).ty.Contents (Elt F)) :
    (TRef.of main_v3 h1 h2 h3 : TRef sig ⟨S800000, .i32⟩).ofBuf v = v := rfl
theorem ofBuf_arg0 (h1 h2 h3) (v : (main_arg0 : Ref sig .tc).ty.Contents (Elt F)) :
    (TRef.of main_arg0 h1 h2 h3 : TRef sig ⟨S50000x64, .f32⟩).ofBuf v = v := rfl

theorem after0_v1 (V : Valuation τ sig (Elt F)) :
    StableHlo.after hostOps0 V (Proc.devRef .tc main_v1) = srcIdx (V (Proc.devRef .tc main_arg1)) := by
  dsimp only [hostOps0]; after_results; rfl

theorem after0_v3 (V : Valuation τ sig (Elt F)) :
    StableHlo.after hostOps0 V (Proc.devRef .tc main_v3) = dstIdx (V (Proc.devRef .tc main_arg1)) := by
  dsimp only [hostOps0]; after_results; rfl

set_option maxHeartbeats 1000000 in
theorem after0_1_v4 (V : Valuation τ sig (Elt F)) :
    StableHlo.after hostOps0_1 V (Proc.devRef .tc main_v4)
      = takeRowsOf (V (Proc.devRef .tc main_arg0)) (V (Proc.devRef .tc main_v1)) := by
  dsimp only [hostOps0_1]; after_results_simp
  simp only [ofBuf_toBuf, toBuf_v4, ofBuf_v1, ofBuf_arg0]
  rfl

set_option maxHeartbeats 1000000 in
theorem after0_2_v5 (V : Valuation τ sig (Elt F)) :
    StableHlo.after hostOps0_2 V (Proc.devRef .tc main_v5)
      = takeRowsOf (V (Proc.devRef .tc main_arg0)) (V (Proc.devRef .tc main_v3)) := by
  dsimp only [hostOps0_2]; after_results_simp
  simp only [ofBuf_toBuf, toBuf_v5, ofBuf_v3, ofBuf_arg0]
  rfl

theorem after0_3_v7 (V : Valuation τ sig (Elt F)) :
    StableHlo.after hostOps0_3 V (Proc.devRef .tc main_v7) = slabOf (V (Proc.devRef .tc main_v4)) (V (Proc.devRef .tc main_v5)) := by
  dsimp only [hostOps0_3]; after_results; rfl

theorem after0_3_v8 (V : Valuation τ sig (Elt F)) :
    StableHlo.after hostOps0_3 V (Proc.devRef .tc main_v8) = truncf (F := F) .bf16 (V (Proc.devRef .tc main_arg2)) bitsLt_bf16_f32 := by
  dsimp only [hostOps0_3]; after_results

theorem after0_3_v10 (V : Valuation τ sig (Elt F)) :
    StableHlo.after hostOps0_3 V (Proc.devRef .tc main_v10)
      = truncf (F := F) .bf16 (extractStridedSlice S128x128 ![0, 0] (V (Proc.devRef .tc main_arg3)) slices_S136x128_S128x128_0_0) bitsLt_bf16_f32 := by
  dsimp only [hostOps0_3]; after_results

theorem after0_3_v12 (V : Valuation τ sig (Elt F)) :
    StableHlo.after hostOps0_3 V (Proc.devRef .tc main_v12)
      = truncf (F := F) .bf16 (extractStridedSlice S8x128 ![128, 0] (V (Proc.devRef .tc main_arg3)) slices_S136x128_S8x128_128_0) bitsLt_bf16_f32 := by
  dsimp only [hostOps0_3]; after_results

theorem after0_3_v13 (V : Valuation τ sig (Elt F)) :
    StableHlo.after hostOps0_3 V (Proc.devRef .tc main_v13) = truncf (F := F) .bf16 (V (Proc.devRef .tc main_arg5)) bitsLt_bf16_f32 := by
  dsimp only [hostOps0_3]; after_results

theorem after1_v20 (V : Valuation τ sig (Elt F)) :
    StableHlo.after hostOps1 V (Proc.devRef .tc main_v20)
      = nodeInOf (V (Proc.devRef .tc main_arg0)) (V (Proc.devRef .tc main_v3)) (V (Proc.devRef .tc main_v14)) := by
  dsimp only [hostOps1]; after_results; rfl

theorem after1_v21 (V : Valuation τ sig (Elt F)) :
    StableHlo.after hostOps1 V (Proc.devRef .tc main_v21) = truncf (F := F) .bf16 (V (Proc.devRef .tc main_arg7)) bitsLt_bf16_f32 := by
  dsimp only [hostOps1]; after_results

theorem after1_v22 (V : Valuation τ sig (Elt F)) :
    StableHlo.after hostOps1 V (Proc.devRef .tc main_v22) = truncf (F := F) .bf16 (V (Proc.devRef .tc main_arg9)) bitsLt_bf16_f32 := by
  dsimp only [hostOps1]; after_results

end Stretches

/-! ## The fold read back -/

variable (m : (ℓ : Loc nD τ sig) → Buf (Elt Ideal) ℓ) (ρ : Dev nD → PrngReg)

/-- A reference a stretch does not write holds after it what it held before. -/
theorem W1_of (c : Dev nD) (r : Ref sig .tc) (h : r ∉ refs0) : W1 m ρ c (Proc.devRef .tc r) = W0 m ρ c (Proc.devRef .tc r) :=
  StableHlo.after_of_writes_sub _ _ writes0 h
theorem W2_of (c : Dev nD) (r : Ref sig .tc) (h : r ∉ refs0_1) : W2 m ρ c (Proc.devRef .tc r) = W1 m ρ c (Proc.devRef .tc r) :=
  StableHlo.after_of_writes_sub _ _ writes0_1 h
theorem W3_of (c : Dev nD) (r : Ref sig .tc) (h : r ∉ refs0_2) : W3 m ρ c (Proc.devRef .tc r) = W2 m ρ c (Proc.devRef .tc r) :=
  StableHlo.after_of_writes_sub _ _ writes0_2 h
theorem W4_of (c : Dev nD) (r : Ref sig .tc) (h : r ∉ refs0_3) : W4 m ρ c (Proc.devRef .tc r) = W3 m ρ c (Proc.devRef .tc r) :=
  StableHlo.after_of_writes_sub _ _ writes0_3 h
theorem W6_of (c : Dev nD) (r : Ref sig .tc) (h : r ∉ refs1) : W6 m ρ c (Proc.devRef .tc r) = W5 m ρ c (Proc.devRef .tc r) :=
  StableHlo.after_of_writes_sub _ _ writes1 h

/-- A reference nothing writes holds its launch contents at every boundary. -/
theorem W1_arg (c : Dev nD) (r : Ref sig .tc) (h0 : r ∉ refs0) : W1 m ρ c (Proc.devRef .tc r) = m ((c.tc : Thread nD τ).loc r) :=
  W1_of m ρ c r h0
theorem W2_arg (c : Dev nD) (r : Ref sig .tc) (h1 : r ∉ refs0_1) (h0 : r ∉ refs0) : W2 m ρ c (Proc.devRef .tc r) = m ((c.tc : Thread nD τ).loc r) :=
  (W2_of m ρ c r h1).trans (W1_arg m ρ c r h0)
theorem W3_arg (c : Dev nD) (r : Ref sig .tc) (h2 : r ∉ refs0_2) (h1 : r ∉ refs0_1) (h0 : r ∉ refs0) : W3 m ρ c (Proc.devRef .tc r) = m ((c.tc : Thread nD τ).loc r) :=
  (W3_of m ρ c r h2).trans (W2_arg m ρ c r h1 h0)
theorem W4_arg (c : Dev nD) (r : Ref sig .tc) (h3 : r ∉ refs0_3) (h2 : r ∉ refs0_2) (h1 : r ∉ refs0_1) (h0 : r ∉ refs0) :
    W4 m ρ c (Proc.devRef .tc r) = m ((c.tc : Thread nD τ).loc r) :=
  (W4_of m ρ c r h3).trans (W3_arg m ρ c r h2 h1 h0)
theorem W5_arg (c : Dev nD) (r : Ref sig .tc) (hw : ∀ w, Pipeline.arrRef spec0 w ≠ r) (h3 : r ∉ refs0_3) (h2 : r ∉ refs0_2) (h1 : r ∉ refs0_1)
    (h0 : r ∉ refs0) : W5 m ρ c (Proc.devRef .tc r) = m ((c.tc : Thread nD τ).loc r) :=
  (W5_of_ne m ρ c r hw).trans (W4_arg m ρ c r h3 h2 h1 h0)
theorem W6_arg (c : Dev nD) (r : Ref sig .tc) (h : r ∉ refs1) (hw : ∀ w, Pipeline.arrRef spec0 w ≠ r) (h3 : r ∉ refs0_3) (h2 : r ∉ refs0_2)
    (h1 : r ∉ refs0_1) (h0 : r ∉ refs0) : W6 m ρ c (Proc.devRef .tc r) = m ((c.tc : Thread nD τ).loc r) :=
  (W6_of m ρ c r h).trans (W5_arg m ρ c r hw h3 h2 h1 h0)

/-- The two rows of the index array. -/
theorem W1_v1 (c : Dev nD) : W1 m ρ c (Proc.devRef .tc main_v1) = srcIdx (m ((c.tc : Thread nD τ).loc main_arg1)) := after0_v1 (W0 m ρ c)
theorem W1_v3 (c : Dev nD) : W1 m ρ c (Proc.devRef .tc main_v3) = dstIdx (m ((c.tc : Thread nD τ).loc main_arg1)) := after0_v3 (W0 m ρ c)
theorem W2_v3 (c : Dev nD) : W2 m ρ c (Proc.devRef .tc main_v3) = dstIdx (m ((c.tc : Thread nD τ).loc main_arg1)) :=
  (W2_of m ρ c main_v3 (by decide)).trans (W1_v3 m ρ c)
theorem W5_v3 (c : Dev nD) : W5 m ρ c (Proc.devRef .tc main_v3) = dstIdx (m ((c.tc : Thread nD τ).loc main_arg1)) :=
  (W5_of_ne m ρ c main_v3 (by decide)).trans ((W4_of m ρ c main_v3 (by decide)).trans ((W3_of m ρ c main_v3 (by decide)).trans (W2_v3 m ρ c)))

/-- The source rows and the destination rows of the feature table. -/
theorem W2_v4 (c : Dev nD) : W2 m ρ c (Proc.devRef .tc main_v4) = takeRows (m ((c.tc : Thread nD τ).loc main_arg0)) (srcIdx (m ((c.tc : Thread nD τ).loc main_arg1))) := by
  show StableHlo.after hostOps0_1 (W1 m ρ c) (Proc.devRef .tc main_v4) = _
  rw [after0_1_v4, W1_arg m ρ c main_arg0 (by decide), W1_v1]; rfl
theorem W3_v4 (c : Dev nD) : W3 m ρ c (Proc.devRef .tc main_v4) = takeRows (m ((c.tc : Thread nD τ).loc main_arg0)) (srcIdx (m ((c.tc : Thread nD τ).loc main_arg1))) :=
  (W3_of m ρ c main_v4 (by decide)).trans (W2_v4 m ρ c)
theorem W3_v5 (c : Dev nD) : W3 m ρ c (Proc.devRef .tc main_v5) = takeRows (m ((c.tc : Thread nD τ).loc main_arg0)) (dstIdx (m ((c.tc : Thread nD τ).loc main_arg1))) := by
  show StableHlo.after hostOps0_2 (W2 m ρ c) (Proc.devRef .tc main_v5) = _
  rw [after0_2_v5, W2_arg m ρ c main_arg0 (by decide) (by decide), W2_v3]; rfl

/-- The messages the edge region leaves. -/
theorem W5_v14 (c : Dev nD) : W5 m ρ c (Proc.devRef .tc main_v14) = (dat0 (V4 m ρ) c).arrAt 7 cfg0.N := W5_arr m ρ c 7

/-! ## At the edge region's entry -/

theorem V4_v7 (c : Dev nD) : V4 m ρ c main_v7 = slab (m ((c.tc : Thread nD τ).loc main_arg0)) (m ((c.tc : Thread nD τ).loc main_arg1)) := by
  show StableHlo.after hostOps0_3 (W3 m ρ c) (Proc.devRef .tc main_v7) = _
  rw [after0_3_v7, W3_v4, W3_v5]; rfl

theorem V4_v8 (c : Dev nD) : V4 m ρ c main_v8 = truncf (F := Ideal) .bf16 (m ((c.tc : Thread nD τ).loc main_arg2)) bitsLt_bf16_f32 := by
  show StableHlo.after hostOps0_3 (W3 m ρ c) (Proc.devRef .tc main_v8) = _
  rw [after0_3_v8, W3_arg m ρ c main_arg2 (by decide) (by decide) (by decide)]

theorem V4_v10 (c : Dev nD) : V4 m ρ c main_v10
    = truncf (F := Ideal) .bf16 (extractStridedSlice S128x128 ![0, 0] (m ((c.tc : Thread nD τ).loc main_arg3)) slices_S136x128_S128x128_0_0) bitsLt_bf16_f32 := by
  show StableHlo.after hostOps0_3 (W3 m ρ c) (Proc.devRef .tc main_v10) = _
  rw [after0_3_v10, W3_arg m ρ c main_arg3 (by decide) (by decide) (by decide)]

theorem V4_v12 (c : Dev nD) : V4 m ρ c main_v12
    = truncf (F := Ideal) .bf16 (extractStridedSlice S8x128 ![128, 0] (m ((c.tc : Thread nD τ).loc main_arg3)) slices_S136x128_S8x128_128_0) bitsLt_bf16_f32 := by
  show StableHlo.after hostOps0_3 (W3 m ρ c) (Proc.devRef .tc main_v12) = _
  rw [after0_3_v12, W3_arg m ρ c main_arg3 (by decide) (by decide) (by decide)]

theorem V4_v13 (c : Dev nD) : V4 m ρ c main_v13 = truncf (F := Ideal) .bf16 (m ((c.tc : Thread nD τ).loc main_arg5)) bitsLt_bf16_f32 := by
  show StableHlo.after hostOps0_3 (W3 m ρ c) (Proc.devRef .tc main_v13) = _
  rw [after0_3_v13, W3_arg m ρ c main_arg5 (by decide) (by decide) (by decide)]

theorem V4_arg4 (c : Dev nD) : V4 m ρ c main_arg4 = (m ((c.tc : Thread nD τ).loc main_arg4)) :=
  W4_arg m ρ c main_arg4 (by decide) (by decide) (by decide) (by decide)

theorem V4_arg6 (c : Dev nD) : V4 m ρ c main_arg6 = (m ((c.tc : Thread nD τ).loc main_arg6)) :=
  W4_arg m ρ c main_arg6 (by decide) (by decide) (by decide) (by decide)

/-! ## At the node region's entry -/

theorem V6_v20 (c : Dev nD) : V6 m ρ c main_v20
    = nodeIn (m ((c.tc : Thread nD τ).loc main_arg0)) (m ((c.tc : Thread nD τ).loc main_arg1)) ((dat0 (V4 m ρ) c).arrAt 7 cfg0.N) := by
  show StableHlo.after hostOps1 (W5 m ρ c) (Proc.devRef .tc main_v20) = _
  rw [after1_v20, W5_arg m ρ c main_arg0 (by decide) (by decide) (by decide) (by decide) (by decide), W5_v3, W5_v14]; rfl

theorem V6_v21 (c : Dev nD) : V6 m ρ c main_v21 = truncf (F := Ideal) .bf16 (m ((c.tc : Thread nD τ).loc main_arg7)) bitsLt_bf16_f32 := by
  show StableHlo.after hostOps1 (W5 m ρ c) (Proc.devRef .tc main_v21) = _
  rw [after1_v21, W5_arg m ρ c main_arg7 (by decide) (by decide) (by decide) (by decide) (by decide)]

theorem V6_v22 (c : Dev nD) : V6 m ρ c main_v22 = truncf (F := Ideal) .bf16 (m ((c.tc : Thread nD τ).loc main_arg9)) bitsLt_bf16_f32 := by
  show StableHlo.after hostOps1 (W5 m ρ c) (Proc.devRef .tc main_v22) = _
  rw [after1_v22, W5_arg m ρ c main_arg9 (by decide) (by decide) (by decide) (by decide) (by decide)]

theorem V6_arg0 (c : Dev nD) : V6 m ρ c main_arg0 = (m ((c.tc : Thread nD τ).loc main_arg0)) :=
  W6_arg m ρ c main_arg0 (by decide) (by decide) (by decide) (by decide) (by decide) (by decide)

theorem V6_arg8 (c : Dev nD) : V6 m ρ c main_arg8 = (m ((c.tc : Thread nD τ).loc main_arg8)) :=
  W6_arg m ρ c main_arg8 (by decide) (by decide) (by decide) (by decide) (by decide) (by decide)

theorem V6_arg10 (c : Dev nD) : V6 m ρ c main_arg10 = (m ((c.tc : Thread nD τ).loc main_arg10)) :=
  W6_arg m ρ c main_arg10 (by decide) (by decide) (by decide) (by decide) (by decide) (by decide)

theorem V6_arg11 (c : Dev nD) : V6 m ρ c main_arg11 = (m ((c.tc : Thread nD τ).loc main_arg11)) :=
  W6_arg m ρ c main_arg11 (by decide) (by decide) (by decide) (by decide) (by decide) (by decide)

theorem V6_arg12 (c : Dev nD) : V6 m ρ c main_arg12 = (m ((c.tc : Thread nD τ).loc main_arg12)) :=
  W6_arg m ρ c main_arg12 (by decide) (by decide) (by decide) (by decide) (by decide) (by decide)

end Cert.KernelIdeal.HostValue

end
-- ==== Proof.BridgeK.lean ====
/-
  The idealized kernel program's result as one function of its arguments: the node update, row by row, of the
  features and of the features joined with the summed edge messages, the messages being the edge perceptron, row by
  row, of the gathered source and destination rows joined, the edge attributes and the weights.
-/
import proofs.«420053_j7799660609778_2_alg».proof.Proof.KernelRun
import proofs.«420053_j7799660609778_2_alg».proof.Proof.EdgeRegion
import proofs.«420053_j7799660609778_2_alg».proof.Proof.NodeRegion
import proofs.«420053_j7799660609778_2_alg».proof.Proof.HostValues

set_option maxRecDepth 16384

noncomputable section

namespace Cert.KernelIdeal.Result

open Cert.KernelIdeal Cert.KernelIdeal.Gen Cert.KernelIdeal.HostValue Idealize.ShloMosaic Idealize.ShloMosaic.TcCoe Idealize.SL.Sem

variable (m : (ℓ : Loc nD τ sig) → Buf (Elt Ideal) ℓ) (ρ : Dev nD → PrngReg)

/-- The edge messages as a function of the arguments. -/
def msgs (c : Dev nD) : HA S800000x64 :=
  Cert.GnnSpec.edgeArr (slab (m ((c.tc : Thread nD τ).loc main_arg0)) (m ((c.tc : Thread nD τ).loc main_arg1)))
    (truncf (F := Ideal) .bf16 (m ((c.tc : Thread nD τ).loc main_arg2)) bitsLt_bf16_f32)
    (truncf (F := Ideal) .bf16 (extractStridedSlice S128x128 ![0, 0] (m ((c.tc : Thread nD τ).loc main_arg3)) slices_S136x128_S128x128_0_0) bitsLt_bf16_f32)
    (truncf (F := Ideal) .bf16 (extractStridedSlice S8x128 ![128, 0] (m ((c.tc : Thread nD τ).loc main_arg3)) slices_S136x128_S8x128_128_0) bitsLt_bf16_f32)
    (m ((c.tc : Thread nD τ).loc main_arg4))
    (truncf (F := Ideal) .bf16 (m ((c.tc : Thread nD τ).loc main_arg5)) bitsLt_bf16_f32)
    (m ((c.tc : Thread nD τ).loc main_arg6))

/-- The edge region leaves the messages in its output array. -/
theorem edge_out (c : Dev nD) : (dat0 (V4 m ρ) c).arrAt 7 cfg0.N = msgs m c := by
  rw [Cert.KernelIdeal.EdgeValue.edge_arr (V4 m ρ) c, V4_v7, V4_v8, V4_v10, V4_v12, V4_arg4, V4_v13, V4_arg6]
  rfl

/-- The result array at the end of the run. -/
theorem result (c : Dev nD) :
    W7 m ρ c (Proc.devRef .tc main_v23)
      = Cert.GnnSpec.nodeArr (m ((c.tc : Thread nD τ).loc main_arg0)) (nodeIn (m ((c.tc : Thread nD τ).loc main_arg0)) (m ((c.tc : Thread nD τ).loc main_arg1)) (msgs m c))
          (truncf (F := Ideal) .bf16 (m ((c.tc : Thread nD τ).loc main_arg7)) bitsLt_bf16_f32) (m ((c.tc : Thread nD τ).loc main_arg8))
          (truncf (F := Ideal) .bf16 (m ((c.tc : Thread nD τ).loc main_arg9)) bitsLt_bf16_f32) (m ((c.tc : Thread nD τ).loc main_arg10)) (m ((c.tc : Thread nD τ).loc main_arg11)) (m ((c.tc : Thread nD τ).loc main_arg12)) := by
  rw [Cert.KernelIdeal.Run.W7_main_v23, Cert.KernelIdeal.NodeValue.node_arr (V6 m ρ) c,
    V6_arg0, V6_v20, V6_v21, V6_arg8, V6_v22, V6_arg10, V6_arg11, V6_arg12, edge_out]

end Cert.KernelIdeal.Result

end
-- ==== Proof.TakeRows.lean ====
/-
  Under the precondition every entry of the index array lies in [-50000, 50000), so every wrapped index lies in
  [0, 49999], the range test passes everywhere, and taking rows is plain gathering.
-/
import proofs.«420053_j7799660609778_2_alg».proof.Proof.KernelHost
import proofs.«420053_j7799660609778_2_alg».proof.Proof.Gen.Pre_finite_inputs
import proofs.«420053_j7799660609778_2_alg».proof.Defs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Words -/

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have ha : f a = 1#1 := h a (List.mem_cons.2 (Or.inl rfl))
    have h11 : IntOp.andi (1#1) (1#1) = 1#1 := by decide
    rw [List.foldl_cons, ha, h11]
    exact ih (fun n hn => h n (List.mem_cons.2 (Or.inr hn)))

/-- A reduction by `and` from the constant 1 of an array that is 1 everywhere is 1 everywhere. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ (fun i _ => hx i)

theorem toInt_lit_zero : (0#32 : BitVec 32).toInt = 0 := by decide
theorem toInt_lit_49999 : (49999#32 : BitVec 32).toInt = 49999 := by decide
theorem toInt_lit_50000 : (50000#32 : BitVec 32).toInt = 50000 := by decide
theorem toInt_lit_neg50000 : (4294917296#32 : BitVec 32).toInt = -50000 := by decide

/-- A word with 50000 added when it is negative. -/
def wrapW (w : BitVec 32) : BitVec 32 := Scalar.select (IntOp.cmpi .slt w 0#32) (IntOp.addi w 50000#32) w

/-- A word in [-50000, 50000), wrapped, lies in [0, 49999]: the addition does not overflow. -/
theorem wrapW_range (w : BitVec 32) (h1 : -50000 ≤ w.toInt) (h2 : w.toInt < 50000) :
    0 ≤ (wrapW w).toInt ∧ (wrapW w).toInt ≤ 49999 := by
  unfold wrapW
  by_cases hneg : w.toInt < 0
  · have hc : IntOp.cmpi .slt w 0#32 = 1#1 := IntOp.cmpi_slt.2 (by rw [toInt_lit_zero]; exact hneg)
    rw [hc, select_one]
    have e : (IntOp.addi w 50000#32).toInt = w.toInt + 50000 := by
      show (w + 50000#32).toInt = _
      rw [BitVec.toInt_add, toInt_lit_50000]
      exact Int.bmod_eq_of_le (by omega) (by omega)
    rw [e]; omega
  · have hc : IntOp.cmpi .slt w 0#32 = 0#1 :=
      eq_zero_of_ne_one (fun h => hneg (by have := IntOp.cmpi_slt.1 h; rw [toInt_lit_zero] at this; exact this))
    rw [hc, select_zero]; omega

/-- A word in [0, 49999] passes the range test. -/
theorem inRange_word (v : BitVec 32) (h0 : 0 ≤ v.toInt) (h1 : v.toInt ≤ 49999) :
    IntOp.andi (IntOp.cmpi .sge v 0#32) (IntOp.cmpi .sle v 49999#32) = 1#1 :=
  IntOp.andi_eq_one.2 ⟨IntOp.cmpi_sge.2 (by rw [toInt_lit_zero]; exact h0), IntOp.cmpi_sle.2 (by rw [toInt_lit_49999]; exact h1)⟩

/-! ## The wrapped column and the range test, read at an index -/

/-- The wrapped column at row p is the wrapped word of entry p. -/
theorem wrapIdx_apply (s : IA S800000) (p : Fin 800000) (q : Fin 1) : wrapIdx s (ix2 p q) = wrapW (s (ix1 p)) := by
  unfold wrapIdx
  refine (broadcastInDim_apply (s := S800000) (t := S800000x1) ![0] bcast_S800000_S800000x1_0 _ (ix2 p q) (ix1 p) (fun a => ?_)).trans rfl
  match a with
  | ⟨0, _⟩ => show p.val = if (800000 : Nat) = 1 then 0 else p.val; rw [if_neg (by decide)]

/-- Where every entry of the column lies in [0, 49999] the range test is 1. -/
theorem inRange_apply_of (w : IA S800000x1) (hw : ∀ i, 0 ≤ (w i).toInt ∧ (w i).toInt ≤ 49999) (p : Fin 800000) (c : Fin 64) :
    inRange w (ix2 p c) = 1#1 := by
  unfold inRange
  refine (broadcastInDim_apply (s := S800000) (t := S800000x64) ![0] bcast_S800000_S800000x64_0 _ (ix2 p c) (ix1 p) (fun a => ?_)).trans ?_
  · match a with
    | ⟨0, _⟩ => show p.val = if (800000 : Nat) = 1 then 0 else p.val; rw [if_neg (by decide)]
  · exact reduce_andi_of_all _ _ _ (fun i => inRange_word (w i) (hw i).1 (hw i).2) _

/-- Taking rows at an index vector whose entries lie in [-50000, 50000) is gathering at the wrapped column. -/
theorem takeRows_of_range (x0 : FA S50000x64) (s : IA S800000)
    (hs : ∀ e, -50000 ≤ (s e).toInt ∧ (s e).toInt < 50000) : takeRows x0 s = gathered x0 (wrapIdx s) := by
  have hw : ∀ i, 0 ≤ (wrapIdx s i).toInt ∧ (wrapIdx s i).toInt ≤ 49999 := by
    intro i
    obtain ⟨p, q, rfl⟩ : ∃ (p : Fin 800000) (q : Fin 1), i = ix2 p q := ⟨i 0, i 1, eq_ix2 i⟩
    rw [wrapIdx_apply]
    exact wrapW_range _ (hs _).1 (hs _).2
  funext j
  obtain ⟨p, c, rfl⟩ : ∃ (p : Fin 800000) (c : Fin 64), j = ix2 p c := ⟨j 0, j 1, eq_ix2 j⟩
  unfold takeRows
  rw [select_apply, inRange_apply_of _ hw p c, select_one]

/-! ## The two rows of the index array, read at an entry -/

/-- Row 0 of the index array at entry p. -/
theorem srcIdx_apply (x1 : IA S2x800000) (p : Fin 800000) : srcIdx x1 (ix1 p) = x1 (ix2 (0 : Fin 2) p) := by
  unfold srcIdx
  refine (shapeCast_apply _ shapeCasts_S1x800000_S800000 (ix1 p) (ix2 (0 : Fin 1) p)
    (by rewrite [Shape.rowMajor_val_two, Shape.rowMajor_val_one]; show 0 * 800000 + p.val = p.val; omega)).trans ?_
  exact extractStridedSlice_apply ![0, 0] x1 slices_S2x800000_S1x800000_0_0 (ix2 (0 : Fin 1) p) (ix2 (0 : Fin 2) p)
    (fun a => match a with
      | ⟨0, _⟩ => by show (0 : Nat) = 0 + 0; omega
      | ⟨1, _⟩ => by show p.val = 0 + p.val; omega)

/-- Row 1 of the index array at entry p. -/
theorem dstIdx_apply (x1 : IA S2x800000) (p : Fin 800000) : dstIdx x1 (ix1 p) = x1 (ix2 (1 : Fin 2) p) := by
  unfold dstIdx
  refine (shapeCast_apply _ shapeCasts_S1x800000_S800000 (ix1 p) (ix2 (0 : Fin 1) p)
    (by rewrite [Shape.rowMajor_val_two, Shape.rowMajor_val_one]; show 0 * 800000 + p.val = p.val; omega)).trans ?_
  exact extractStridedSlice_apply ![1, 0] x1 slices_S2x800000_S1x800000_1_0 (ix2 (0 : Fin 1) p) (ix2 (1 : Fin 2) p)
    (fun a => match a with
      | ⟨0, _⟩ => by show (1 : Nat) = 1 + 0; omega
      | ⟨1, _⟩ => by show p.val = 0 + p.val; omega)

/-! ## The precondition's last conjunct, decoded -/

/-- Under the precondition every entry of the index array lies in [-50000, 50000), read signed. -/
theorem range_of_pre (hpre : Cert.Pre_KernelIdeal m) (c : Dev nD) (i : S2x800000.Idx) :
    -50000 ≤ ((m ((c.tc : Thread nD τ).loc main_arg1)) i).toInt ∧ ((m ((c.tc : Thread nD τ).loc main_arg1)) i).toInt < 50000 := by
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1, Cert.Pre_finite_inputs.fn_part2,
    Cert.Pre_finite_inputs.fn_part3] at e
  have e2 := (IntOp.andi_eq_one.1 e).2
  have e3 := Host.reduce_andi_all _ _ _ _ _ e2 i
  obtain ⟨ha, hb⟩ := IntOp.andi_eq_one.1 e3
  have ha' : (4294917296#32 : BitVec 32).toInt ≤ ((m ((c.tc : Thread nD τ).loc main_arg1)) i).toInt := IntOp.cmpi_sge.1 ha
  have hb' : ((m ((c.tc : Thread nD τ).loc main_arg1)) i).toInt < (50000#32 : BitVec 32).toInt := IntOp.cmpi_slt.1 hb
  rw [toInt_lit_neg50000] at ha'
  rw [toInt_lit_50000] at hb'
  exact ⟨ha', hb'⟩

/-- Under the precondition the source rows are plainly gathered. -/
theorem takeRows_src (hpre : Cert.Pre_KernelIdeal m) (c : Dev nD) :
    takeRows (m ((c.tc : Thread nD τ).loc main_arg0)) (srcIdx (m ((c.tc : Thread nD τ).loc main_arg1)))
      = gathered (m ((c.tc : Thread nD τ).loc main_arg0)) (wrapIdx (srcIdx (m ((c.tc : Thread nD τ).loc main_arg1)))) := by
  refine takeRows_of_range _ _ (fun e => ?_)
  obtain ⟨p, rfl⟩ : ∃ p : Fin 800000, e = ix1 p := ⟨e 0, eq_ix1 e⟩
  rw [srcIdx_apply]
  exact range_of_pre m hpre c _

/-- Under the precondition the destination rows are plainly gathered. -/
theorem takeRows_dst (hpre : Cert.Pre_KernelIdeal m) (c : Dev nD) :
    takeRows (m ((c.tc : Thread nD τ).loc main_arg0)) (dstIdx (m ((c.tc : Thread nD τ).loc main_arg1)))
      = gathered (m ((c.tc : Thread nD τ).loc main_arg0)) (wrapIdx (dstIdx (m ((c.tc : Thread nD τ).loc main_arg1)))) := by
  refine takeRows_of_range _ _ (fun e => ?_)
  obtain ⟨p, rfl⟩ : ∃ p : Fin 800000, e = ix1 p := ⟨e 0, eq_ix1 e⟩
  rw [dstIdx_apply]
  exact range_of_pre m hpre c _

end Cert.KernelIdeal.HostValue

end
-- ==== Proof.Joined.lean ====
/-
  Joining matrices side by side, read at an entry.

  Three matrices of 800000 rows with 64, 64 and 8 columns joined along the columns make 136 columns: at a column
  below 128 the joined matrix reads what the first two joined alone read there, and at column 128 + k it reads
  the third matrix's column k.
-/
import Idealize.ShloMosaic.Lib.Pipeline.Value
import Idealize.ShloMosaic.Lib.ValueIdx

noncomputable section

namespace Cert.Joined

open Idealize.ShloMosaic Idealize.ShloMosaic.ValueIdx

/-- The shape of a matrix with `n0` rows and `n1` columns. -/
abbrev Sh (n0 n1 : Nat) : Shape := ⟨2, ![n0, n1]⟩

/-- The three-way join at a column `c = k < 64` reads the first matrix at column `k`. -/
theorem join3_at_A {α : Type} (A B : (Sh 800000 64).Idx → α) (E : (Sh 800000 8).Idx → α)
    (h3 : Shape.Concatenates [Sh 800000 64, Sh 800000 64, Sh 800000 8] (Sh 800000 136) 1)
    (e : Fin 800000) (c : Fin 136) (k : Fin 64) (hc : c.val = k.val) :
    concatenate (Sh 800000 136) 1 [⟨Sh 800000 64, A⟩, ⟨Sh 800000 64, B⟩, ⟨Sh 800000 8, E⟩] h3 (ix2 e c)
      = A (ix2 e k) := by
  refine concatenate_apply_piece (t := Sh 800000 136) 1 [⟨Sh 800000 64, A⟩, ⟨Sh 800000 64, B⟩, ⟨Sh 800000 8, E⟩] h3 (ix2 e c) 0 (Nat.zero_lt_succ _) (Sh 800000 64) A rfl rfl 0 rfl
    (ix2 e k) ?_ ?_
  · intro b hb
    match b with
    | ⟨0, _⟩ => rfl
    | ⟨1, _⟩ => exact absurd rfl hb
  · show 0 + k.val = c.val
    omega

/-- The three-way join at a column `c = 64 + k`, `k < 64`, reads the second matrix at column `k`. -/
theorem join3_at_B {α : Type} (A B : (Sh 800000 64).Idx → α) (E : (Sh 800000 8).Idx → α)
    (h3 : Shape.Concatenates [Sh 800000 64, Sh 800000 64, Sh 800000 8] (Sh 800000 136) 1)
    (e : Fin 800000) (c : Fin 136) (k : Fin 64) (hc : c.val = 64 + k.val) :
    concatenate (Sh 800000 136) 1 [⟨Sh 800000 64, A⟩, ⟨Sh 800000 64, B⟩, ⟨Sh 800000 8, E⟩] h3 (ix2 e c)
      = B (ix2 e k) := by
  refine concatenate_apply_piece (t := Sh 800000 136) 1 [⟨Sh 800000 64, A⟩, ⟨Sh 800000 64, B⟩, ⟨Sh 800000 8, E⟩] h3 (ix2 e c) 1 (Nat.succ_lt_succ (Nat.zero_lt_succ _)) (Sh 800000 64) B rfl rfl 64 rfl
    (ix2 e k) ?_ ?_
  · intro b hb
    match b with
    | ⟨0, _⟩ => rfl
    | ⟨1, _⟩ => exact absurd rfl hb
  · show 64 + k.val = c.val
    omega

/-- The three-way join at a column `c = 128 + k`, `k < 8`, reads the third matrix at column `k`. -/
theorem join3_at_E {α : Type} (A B : (Sh 800000 64).Idx → α) (E : (Sh 800000 8).Idx → α)
    (h3 : Shape.Concatenates [Sh 800000 64, Sh 800000 64, Sh 800000 8] (Sh 800000 136) 1)
    (e : Fin 800000) (c : Fin 136) (k : Fin 8) (hc : c.val = 128 + k.val) :
    concatenate (Sh 800000 136) 1 [⟨Sh 800000 64, A⟩, ⟨Sh 800000 64, B⟩, ⟨Sh 800000 8, E⟩] h3 (ix2 e c)
      = E (ix2 e k) := by
  refine concatenate_apply_piece (t := Sh 800000 136) 1 [⟨Sh 800000 64, A⟩, ⟨Sh 800000 64, B⟩, ⟨Sh 800000 8, E⟩] h3 (ix2 e c) 2 (Nat.succ_lt_succ (Nat.succ_lt_succ (Nat.zero_lt_succ _))) (Sh 800000 8) E rfl rfl 128 rfl
    (ix2 e k) ?_ ?_
  · intro b hb
    match b with
    | ⟨0, _⟩ => rfl
    | ⟨1, _⟩ => exact absurd rfl hb
  · show 128 + k.val = c.val
    omega

/-- The two-way join at a column `c = k < 64` reads the first matrix at column `k`. -/
theorem join2_at_A {α : Type} (A B : (Sh 800000 64).Idx → α)
    (h2 : Shape.Concatenates [Sh 800000 64, Sh 800000 64] (Sh 800000 128) 1)
    (e : Fin 800000) (c : Fin 128) (k : Fin 64) (hc : c.val = k.val) :
    concatenate (Sh 800000 128) 1 [⟨Sh 800000 64, A⟩, ⟨Sh 800000 64, B⟩] h2 (ix2 e c) = A (ix2 e k) := by
  refine concatenate_apply_piece (t := Sh 800000 128) 1 [⟨Sh 800000 64, A⟩, ⟨Sh 800000 64, B⟩] h2 (ix2 e c) 0 (Nat.zero_lt_succ _) (Sh 800000 64) A rfl rfl 0 rfl
    (ix2 e k) ?_ ?_
  · intro b hb
    match b with
    | ⟨0, _⟩ => rfl
    | ⟨1, _⟩ => exact absurd rfl hb
  · show 0 + k.val = c.val
    omega

/-- The two-way join at a column `c = 64 + k`, `k < 64`, reads the second matrix at column `k`. -/
theorem join2_at_B {α : Type} (A B : (Sh 800000 64).Idx → α)
    (h2 : Shape.Concatenates [Sh 800000 64, Sh 800000 64] (Sh 800000 128) 1)
    (e : Fin 800000) (c : Fin 128) (k : Fin 64) (hc : c.val = 64 + k.val) :
    concatenate (Sh 800000 128) 1 [⟨Sh 800000 64, A⟩, ⟨Sh 800000 64, B⟩] h2 (ix2 e c) = B (ix2 e k) := by
  refine concatenate_apply_piece (t := Sh 800000 128) 1 [⟨Sh 800000 64, A⟩, ⟨Sh 800000 64, B⟩] h2 (ix2 e c) 1 (Nat.succ_lt_succ (Nat.zero_lt_succ _)) (Sh 800000 64) B rfl rfl 64 rfl
    (ix2 e k) ?_ ?_
  · intro b hb
    match b with
    | ⟨0, _⟩ => rfl
    | ⟨1, _⟩ => exact absurd rfl hb
  · show 64 + k.val = c.val
    omega

/-- Left of column 128 the three-way join is the join of the first two. -/
theorem join3_left {α : Type} (A B : (Sh 800000 64).Idx → α) (E : (Sh 800000 8).Idx → α)
    (h3 : Shape.Concatenates [Sh 800000 64, Sh 800000 64, Sh 800000 8] (Sh 800000 136) 1)
    (h2 : Shape.Concatenates [Sh 800000 64, Sh 800000 64] (Sh 800000 128) 1)
    (e : Fin 800000) (k : Fin 128) :
    concatenate (Sh 800000 136) 1 [⟨Sh 800000 64, A⟩, ⟨Sh 800000 64, B⟩, ⟨Sh 800000 8, E⟩] h3 (ix2 e (Fin.castAdd 8 k))
      = concatenate (Sh 800000 128) 1 [⟨Sh 800000 64, A⟩, ⟨Sh 800000 64, B⟩] h2 (ix2 e k) := by
  by_cases hk : k.val < 64
  · rw [join3_at_A A B E h3 e (Fin.castAdd 8 k) ⟨k.val, hk⟩ rfl, join2_at_A A B h2 e k ⟨k.val, hk⟩ rfl]
  · have hk' : k.val - 64 < 64 := by have := k.isLt; omega
    have hv : k.val = 64 + (k.val - 64) := by omega
    rw [join3_at_B A B E h3 e (Fin.castAdd 8 k) ⟨k.val - 64, hk'⟩ hv, join2_at_B A B h2 e k ⟨k.val - 64, hk'⟩ hv]

/-- From column 128 on the three-way join is the third matrix. -/
theorem join3_right {α : Type} (A B : (Sh 800000 64).Idx → α) (E : (Sh 800000 8).Idx → α)
    (h3 : Shape.Concatenates [Sh 800000 64, Sh 800000 64, Sh 800000 8] (Sh 800000 136) 1)
    (e : Fin 800000) (k : Fin 8) :
    concatenate (Sh 800000 136) 1 [⟨Sh 800000 64, A⟩, ⟨Sh 800000 64, B⟩, ⟨Sh 800000 8, E⟩] h3 (ix2 e (Fin.natAdd 128 k))
      = E (ix2 e k) :=
  join3_at_E A B E h3 e (Fin.natAdd 128 k) k rfl

end Cert.Joined

end
-- ==== Proof.RefRead.lean ====
/-
  The reference program read at an entry: every edge's message is the joined-form perceptron of that edge's row of
  the 136-column joined input, and the program's result is the node update of the features and of the 128-column
  joined node input, row by row.
-/
import proofs.«420053_j7799660609778_2_alg».proof.Proof.Gen.ReferenceIdeal.Read
import proofs.«420053_j7799660609778_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.GnnSpec (rowOf colOf)

abbrev FA (S : Shape) : Type := (⟨S, .f32⟩ : BufTy).Contents (Elt Ideal)
abbrev IA (S : Shape) : Type := (⟨S, .i32⟩ : BufTy).Contents (Elt Ideal)

/-! ## The edge messages: which entries of the operands an entry of the result reads -/

/-- The first layer's left operand, read for hidden unit `k` of edge `i 0`, is the joined row of that edge at `k'`. -/
theorem edge_l1 (i : S800000x64.Idx) (k : Fin 128) (k' : Fin 136) :
    lidx_main_v19 (lidx_main_v24 i k) k' = ix2 (rowOf i) k' :=
  funext fun a => Fin.ext (by match a with | ⟨0, _⟩ => rfl | ⟨1, _⟩ => rfl)

/-- The first layer's right operand is the weight at row `k'`, column `k`. -/
theorem edge_r1 (i : S800000x64.Idx) (k : Fin 128) (k' : Fin 136) :
    ridx_main_v19 (lidx_main_v24 i k) k' = ix2 k' k :=
  funext fun a => Fin.ext (by match a with | ⟨0, _⟩ => rfl | ⟨1, _⟩ => rfl)

/-- The first layer's bias is read at the hidden unit. -/
theorem edge_b1 (i : S800000x64.Idx) (k : Fin 128) :
    idx_main_v20 (idx_main_v21 (lidx_main_v24 i k)) = ix1 k :=
  funext fun a => Fin.ext (by match a with | ⟨0, _⟩ => rfl)

/-- The second layer's right operand is the weight at row `k`, the entry's column. -/
theorem edge_r2 (i : S800000x64.Idx) (k : Fin 128) :
    ridx_main_v24 i k = ix2 k (colOf i) :=
  funext fun a => Fin.ext (by match a with | ⟨0, _⟩ => rfl | ⟨1, _⟩ => rfl)

/-- The second layer's bias is read at the entry's column. -/
theorem edge_b2 (i : S800000x64.Idx) :
    idx_main_v25 (idx_main_v26 i) = ix1 (colOf i) :=
  funext fun a => Fin.ext (by match a with | ⟨0, _⟩ => rfl)

/-- Every edge's message in the reference: the perceptron over the edge's row of the 136-column joined input. -/
theorem msgs_apply (x0 : FA S50000x64) (x1 : IA S2x800000) (x2 : FA S800000x8) (x3 : FA S136x128) (x4 : FA S128)
    (x5 : FA S128x64) (x6 : FA S64) (i : S800000x64.Idx) :
    val_main_v27 (F := Ideal) x0 x1 x2 x3 x4 x5 x6 i
      = Cert.GnnSpec.edgeRowJoined (fun k => val_main_v18 (F := Ideal) x0 x1 x2 (ix2 (rowOf i) k)) (fun k' k => x3 (ix2 k' k))
          (fun k => x4 (ix1 k)) (fun k j => x5 (ix2 k j)) (fun j => x6 (ix1 j)) (colOf i) := by
  unfold Cert.GnnSpec.edgeRowJoined
  rw [val_main_v27_apply, val_main_v24_apply, val_main_v26_apply, val_main_v25_apply, edge_b2]
  refine congrArg₂ (· + ·) (Finset.sum_congr rfl fun k _ => ?_) rfl
  rw [val_main_v23_apply, val_main_v22_apply, val_main_v19_apply, val_main_v21_apply, val_main_v20_apply,
    val_main_call0_v0_apply, val_main_call0_cst_apply, edge_b1, edge_r2]
  refine congrArg₂ (· * ·) (congrArg₂ max (congrArg₂ (· + ·) (Finset.sum_congr rfl fun k' _ => ?_) rfl) rfl) rfl
  rw [edge_l1, edge_r1]

/-! ## The node update: which entries of the operands an entry of the result reads -/

/-- The first layer's left operand, read for hidden unit `k` of node `r`, is the joined node row at `k'`. -/
theorem node_l1 (r : Fin 50000) (j : Fin 64) (k k' : Fin 128) :
    lidx_main_v32 (lidx_main_v37 (ix2 r j) k) k' = ix2 r k' :=
  funext fun a => Fin.ext (by match a with | ⟨0, _⟩ => rfl | ⟨1, _⟩ => rfl)

/-- The first layer's right operand is the weight at row `k'`, column `k`. -/
theorem node_r1 (r : Fin 50000) (j : Fin 64) (k k' : Fin 128) :
    ridx_main_v32 (lidx_main_v37 (ix2 r j) k) k' = ix2 k' k :=
  funext fun a => Fin.ext (by match a with | ⟨0, _⟩ => rfl | ⟨1, _⟩ => rfl)

/-- The first layer's bias is read at the hidden unit. -/
theorem node_b1 (r : Fin 50000) (j : Fin 64) (k : Fin 128) :
    idx_main_v33 (idx_main_v34 (lidx_main_v37 (ix2 r j) k)) = ix1 k :=
  funext fun a => Fin.ext (by match a with | ⟨0, _⟩ => rfl)

/-- The second layer's right operand is the weight at row `k`, column `j`. -/
theorem node_r2 (r : Fin 50000) (j : Fin 64) (k : Fin 128) :
    ridx_main_v37 (ix2 r j) k = ix2 k j :=
  funext fun a => Fin.ext (by match a with | ⟨0, _⟩ => rfl | ⟨1, _⟩ => rfl)

/-- The second layer's bias is read at column `j`. -/
theorem node_b2 (r : Fin 50000) (j : Fin 64) :
    idx_main_v38 (idx_main_v39 (ix2 r j)) = ix1 j :=
  funext fun a => Fin.ext (by match a with | ⟨0, _⟩ => rfl)

/-- The first row sum of node `r` runs over the entries of row `r`. -/
theorem node_sum1 (r : Fin 50000) (z : Fin 1) (k : Fin 64) :
    idx_main_v42 (idx_main_v43 (ix2 r z)) k = ix2 r k :=
  funext fun a => Fin.ext (by match a with | ⟨0, _⟩ => rfl | ⟨1, _⟩ => rfl)

/-- The second row sum of node `r` runs over the entries of row `r`. -/
theorem node_sum2 (r : Fin 50000) (z : Fin 1) (k : Fin 64) :
    idx_main_v49 (idx_main_v50 (ix2 r z)) k = ix2 r k :=
  funext fun a => Fin.ext (by match a with | ⟨0, _⟩ => rfl | ⟨1, _⟩ => rfl)

/-- The one column of the per-row arrays. -/
abbrev unitCol : Fin 1 := ⟨0, Nat.one_pos⟩

/-- An entry of row `r` reads the row's mean (first centring). -/
theorem node_m1 (r : Fin 50000) (j : Fin 64) : idx_main_v46 (ix2 r j) = ix2 r unitCol :=
  funext fun a => Fin.ext (by match a with | ⟨0, _⟩ => rfl | ⟨1, _⟩ => rfl)

/-- An entry of row `r` reads the row's mean (second centring). -/
theorem node_m2 (r : Fin 50000) (j : Fin 64) : idx_main_v53 (ix2 r j) = ix2 r unitCol :=
  funext fun a => Fin.ext (by match a with | ⟨0, _⟩ => rfl | ⟨1, _⟩ => rfl)

/-- An entry of row `r` reads the row's scale. -/
theorem node_s (r : Fin 50000) (j : Fin 64) : idx_main_v58 (ix2 r j) = ix2 r unitCol :=
  funext fun a => Fin.ext (by match a with | ⟨0, _⟩ => rfl | ⟨1, _⟩ => rfl)

/-- The gain is read at column `j`. -/
theorem node_g (r : Fin 50000) (j : Fin 64) : idx_main_v60 (idx_main_v61 (ix2 r j)) = ix1 j :=
  funext fun a => Fin.ext (by match a with | ⟨0, _⟩ => rfl)

/-- The final bias is read at column `j`. -/
theorem node_b (r : Fin 50000) (j : Fin 64) : idx_main_v63 (idx_main_v64 (ix2 r j)) = ix1 j :=
  funext fun a => Fin.ext (by match a with | ⟨0, _⟩ => rfl)

section node

variable (x0 : FA S50000x64) (x1 : IA S2x800000) (x2 : FA S800000x8) (x3 : FA S136x128) (x4 : FA S128)
    (x5 : FA S128x64) (x6 : FA S64) (x7 : FA S128x128) (x8 : FA S128) (x9 : FA S128x64) (x10 x11 x12 : FA S64)

/-- Row `r` of the features plus the update perceptron of row `r` of the joined node input. -/
def resRow (r : Fin 50000) : Fin 64 → EReal :=
  Cert.GnnSpec.nodeRes (fun j => x0 (ix2 r j)) (fun k => val_main_v31 (F := Ideal) x0 x1 x2 x3 x4 x5 x6 (ix2 r k))
    (fun k' k => x7 (ix2 k' k)) (fun k => x8 (ix1 k)) (fun k j => x9 (ix2 k j)) (fun j => x10 (ix1 j))

/-- The residual sum at an entry is the specification's row at the entry's column. -/
theorem res_apply (r : Fin 50000) (j : Fin 64) :
    val_main_v41 (F := Ideal) x0 x1 x2 x3 x4 x5 x6 x7 x8 x9 x10 (ix2 r j)
      = resRow x0 x1 x2 x3 x4 x5 x6 x7 x8 x9 x10 r j := by
  unfold resRow Cert.GnnSpec.nodeRes
  rw [val_main_v41_apply, val_main_v40_apply, val_main_v37_apply, val_main_v39_apply, val_main_v38_apply, node_b2]
  refine congrArg₂ (· + ·) rfl (congrArg₂ (· + ·) (Finset.sum_congr rfl fun k _ => ?_) rfl)
  rw [val_main_v36_apply, val_main_v35_apply, val_main_v32_apply, val_main_v34_apply, val_main_v33_apply,
    val_main_call1_v0_apply, val_main_call1_cst_apply, node_b1, node_r2]
  refine congrArg₂ (· * ·) (congrArg₂ max (congrArg₂ (· + ·) (Finset.sum_congr rfl fun k' _ => ?_) rfl) rfl) rfl
  rw [node_l1, node_r1]

/-- The mean of row `r`: the program's sum starts from the zero word, which adds nothing. -/
theorem mean_apply (r : Fin 50000) (z : Fin 1) :
    val_main_v45 (F := Ideal) x0 x1 x2 x3 x4 x5 x6 x7 x8 x9 x10 (ix2 r z)
      = Cert.GnnSpec.rowMean (resRow x0 x1 x2 x3 x4 x5 x6 x7 x8 x9 x10 r) := by
  unfold Cert.GnnSpec.rowMean
  rw [val_main_v45_apply, val_main_v43_apply, val_main_v44_apply, val_main_cst_4_apply, val_main_v42_apply,
    val_main_cst_3_apply, Ideal.hostDivf_def]
  simp only [Ideal.ofBits_def]
  rw [Ideal.ofBits_zero_f32, zero_add]
  refine congrArg₂ Ideal.div (Finset.sum_congr rfl fun k _ => ?_) rfl
  rw [node_sum1, res_apply]

/-- The centred entry, as the variance reads it. -/
theorem centred1_apply (r : Fin 50000) (j : Fin 64) :
    val_main_v47 (F := Ideal) x0 x1 x2 x3 x4 x5 x6 x7 x8 x9 x10 (ix2 r j)
      = resRow x0 x1 x2 x3 x4 x5 x6 x7 x8 x9 x10 r j
        - Cert.GnnSpec.rowMean (resRow x0 x1 x2 x3 x4 x5 x6 x7 x8 x9 x10 r) := by
  rw [val_main_v47_apply, val_main_v46_apply, node_m1, mean_apply, res_apply, Ideal.subf_def]

/-- The centred entry, as the result reads it. -/
theorem centred2_apply (r : Fin 50000) (j : Fin 64) :
    val_main_v54 (F := Ideal) x0 x1 x2 x3 x4 x5 x6 x7 x8 x9 x10 (ix2 r j)
      = resRow x0 x1 x2 x3 x4 x5 x6 x7 x8 x9 x10 r j
        - Cert.GnnSpec.rowMean (resRow x0 x1 x2 x3 x4 x5 x6 x7 x8 x9 x10 r) := by
  rw [val_main_v54_apply, val_main_v53_apply, node_m2, mean_apply, res_apply, Ideal.subf_def]

/-- The variance of row `r`: the mean of the squared centred entries. -/
theorem var_apply (r : Fin 50000) (z : Fin 1) :
    val_main_v52 (F := Ideal) x0 x1 x2 x3 x4 x5 x6 x7 x8 x9 x10 (ix2 r z)
      = Ideal.div (∑ j' : Fin 64,
          (resRow x0 x1 x2 x3 x4 x5 x6 x7 x8 x9 x10 r j' - Cert.GnnSpec.rowMean (resRow x0 x1 x2 x3 x4 x5 x6 x7 x8 x9 x10 r))
          * (resRow x0 x1 x2 x3 x4 x5 x6 x7 x8 x9 x10 r j' - Cert.GnnSpec.rowMean (resRow x0 x1 x2 x3 x4 x5 x6 x7 x8 x9 x10 r)))
          (Ideal.ofBits .f32 0x42800000#32) := by
  rw [val_main_v52_apply, val_main_v50_apply, val_main_v51_apply, val_main_cst_6_apply, val_main_v49_apply,
    val_main_cst_5_apply, Ideal.hostDivf_def]
  simp only [Ideal.ofBits_def]
  rw [Ideal.ofBits_zero_f32, zero_add]
  refine congrArg₂ Ideal.div (Finset.sum_congr rfl fun k _ => ?_) rfl
  rw [node_sum2, val_main_v48_apply, centred1_apply, Ideal.mulf_def]

end node

/-- The specification's whole-array node update at an entry given by its coordinates. -/
theorem nodeArr_ix2 (h : Cert.GnnSpec.Mat 50000 64) (u : Cert.GnnSpec.Mat 50000 128) (w1 : Cert.GnnSpec.Mat 128 128)
    (b1 : Cert.GnnSpec.Vec1 128) (w2 : Cert.GnnSpec.Mat 128 64) (b2 g b : Cert.GnnSpec.Vec1 64) (r : Fin 50000) (j : Fin 64) :
    Cert.GnnSpec.nodeArr h u w1 b1 w2 b2 g b (ix2 r j)
      = Cert.GnnSpec.layerNorm (Cert.GnnSpec.nodeRes (fun j => h (ix2 r j)) (fun k => u (ix2 r k)) (fun k' k => w1 (ix2 k' k))
          (fun k => b1 (ix1 k)) (fun k j => w2 (ix2 k j)) (fun j => b2 (ix1 j))) (fun j => g (ix1 j)) (fun j => b (ix1 j)) j := rfl

/-- The reference's result: the node update of the features and of the joined node input. -/
theorem out_eq (x0 : FA S50000x64) (x1 : IA S2x800000) (x2 : FA S800000x8) (x3 : FA S136x128) (x4 : FA S128)
    (x5 : FA S128x64) (x6 : FA S64) (x7 : FA S128x128) (x8 : FA S128) (x9 : FA S128x64) (x10 x11 x12 : FA S64) :
    val_main_v65 (F := Ideal) x0 x1 x2 x3 x4 x5 x6 x7 x8 x9 x10 x11 x12
      = Cert.GnnSpec.nodeArr x0 (val_main_v31 (F := Ideal) x0 x1 x2 x3 x4 x5 x6) x7 x8 x9 x10 x11 x12 := by
  funext i
  obtain ⟨r, j, rfl⟩ : ∃ (r : Fin 50000) (j : Fin 64), i = ix2 r j := ⟨i 0, i 1, eq_ix2 i⟩
  refine Eq.trans ?_ (nodeArr_ix2 x0 (val_main_v31 (F := Ideal) x0 x1 x2 x3 x4 x5 x6) x7 x8 x9 x10 x11 x12 r j).symm
  rw [val_main_v65_apply, val_main_v62_apply, val_main_v59_apply, val_main_v58_apply, val_main_v57_apply,
    val_main_v56_apply, val_main_v55_apply, val_main_cst_7_apply, val_main_v61_apply, val_main_v60_apply,
    val_main_v64_apply, val_main_v63_apply, node_s, node_g, node_b, centred2_apply, var_apply,
    Ideal.addf_def, Ideal.mulf_def, Ideal.mulf_def, Ideal.addf_def, Ideal.hostUnary_rsqrt_def, Ideal.ofBits_def]
  rfl

end Cert.ReferenceIdeal.RefValue

end
-- ==== Proof.Bridge.lean ====
/-
  The two idealized programs compute one function.

  Under the precondition every index is in range, so the kernel program's masked row-taking is the reference's
  plain gathering. The kernel's edge messages and the reference's are then the same perceptron of the same rows:
  the kernel contracts the 128 gathered columns and the 8 attribute columns separately and adds, the reference
  contracts the 136 joined columns at once (a sum over 136 terms split as 128 + 8). Both sum the messages into
  their destination rows with the same operation, join the result to the features, and apply the same node update
  and layer norm row by row.
-/
import proofs.«420053_j7799660609778_2_alg».proof.Proof.BridgeK
import proofs.«420053_j7799660609778_2_alg».proof.Proof.TakeRows
import proofs.«420053_j7799660609778_2_alg».proof.Proof.Joined
import proofs.«420053_j7799660609778_2_alg».proof.Proof.RefRead

set_option maxRecDepth 16384

noncomputable section

namespace Cert.Proof.Bridge

open Idealize.ShloMosaic Idealize.ShloMosaic.TcCoe Idealize.SL.Sem Idealize.ShloMosaic.ValueIdx
open Cert.GnnSpec (rowOf colOf)

/-- The upper 128 x 128 block of the first weight matrix, read at an entry. -/
theorem w1_top (x3 : Cert.KernelIdeal.HostValue.FA Cert.KernelIdeal.S136x128) (k' k : Fin 128) :
    extractStridedSlice Cert.KernelIdeal.S128x128 ![0, 0] x3 Cert.KernelIdeal.Gen.slices_S136x128_S128x128_0_0 (ix2 k' k)
      = x3 (ix2 (Fin.castAdd 8 k') k) :=
  extractStridedSlice_apply ![0, 0] x3 Cert.KernelIdeal.Gen.slices_S136x128_S128x128_0_0 (ix2 k' k) (ix2 (Fin.castAdd 8 k') k)
    (fun a => match a with
      | ⟨0, _⟩ => by show k'.val = 0 + k'.val; omega
      | ⟨1, _⟩ => by show k.val = 0 + k.val; omega)

/-- The lower 8 x 128 block of the first weight matrix, read at an entry. -/
theorem w1_bottom (x3 : Cert.KernelIdeal.HostValue.FA Cert.KernelIdeal.S136x128) (k'' : Fin 8) (k : Fin 128) :
    extractStridedSlice Cert.KernelIdeal.S8x128 ![128, 0] x3 Cert.KernelIdeal.Gen.slices_S136x128_S8x128_128_0 (ix2 k'' k)
      = x3 (ix2 (Fin.natAdd 128 k'') k) :=
  extractStridedSlice_apply ![128, 0] x3 Cert.KernelIdeal.Gen.slices_S136x128_S8x128_128_0 (ix2 k'' k) (ix2 (Fin.natAdd 128 k'') k)
    (fun a => match a with
      | ⟨0, _⟩ => by show 128 + k''.val = 128 + k''.val; rfl
      | ⟨1, _⟩ => by show k.val = 0 + k.val; omega)

/-- The edge perceptron depends only on its seven rows and matrices. -/
theorem edgeRow_congr {x x' : Fin 128 → EReal} {a a' : Fin 8 → EReal} {w1 w1' : Fin 128 → Fin 128 → EReal}
    {w1e w1e' : Fin 8 → Fin 128 → EReal} {b1 b1' : Fin 128 → EReal} {w2 w2' : Fin 128 → Fin 64 → EReal}
    {b2 b2' : Fin 64 → EReal} (j : Fin 64)
    (hx : x = x') (ha : a = a') (hw : w1 = w1') (he : w1e = w1e') (hb1 : b1 = b1') (hw2 : w2 = w2') (hb2 : b2 = b2') :
    Cert.GnnSpec.edgeRow x a w1 w1e b1 w2 b2 j = Cert.GnnSpec.edgeRow x' a' w1' w1e' b1' w2' b2' j := by
  subst hx ha hw he hb1 hw2 hb2; rfl

/-- The kernel program's gathered source rows are the reference's: the same operations on the same arrays. -/
theorem gathered_src (x0 : Cert.KernelIdeal.HostValue.FA Cert.KernelIdeal.S50000x64) (x1 : Cert.KernelIdeal.HostValue.IA Cert.KernelIdeal.S2x800000) :
    Cert.KernelIdeal.HostValue.gathered x0 (Cert.KernelIdeal.HostValue.wrapIdx (Cert.KernelIdeal.HostValue.srcIdx x1))
      = Cert.ReferenceIdeal.Read.val_main_v10 (F := Ideal) x0 x1 := rfl

/-- And so are its gathered destination rows. -/
theorem gathered_dst (x0 : Cert.KernelIdeal.HostValue.FA Cert.KernelIdeal.S50000x64) (x1 : Cert.KernelIdeal.HostValue.IA Cert.KernelIdeal.S2x800000) :
    Cert.KernelIdeal.HostValue.gathered x0 (Cert.KernelIdeal.HostValue.wrapIdx (Cert.KernelIdeal.HostValue.dstIdx x1))
      = Cert.ReferenceIdeal.Read.val_main_v17 (F := Ideal) x0 x1 := rfl

/-- Summing rows into their destinations is the same operation in both programs, on the same zeros and the same
    destination column. -/
theorem aggOf_eq (x0 : Cert.KernelIdeal.HostValue.FA Cert.KernelIdeal.S50000x64) (x1 : Cert.KernelIdeal.HostValue.IA Cert.KernelIdeal.S2x800000)
    (x2 : Cert.KernelIdeal.HostValue.FA Cert.KernelIdeal.S800000x8) (x3 : Cert.KernelIdeal.HostValue.FA Cert.KernelIdeal.S136x128)
    (x4 : Cert.KernelIdeal.HostValue.FA Cert.KernelIdeal.S128) (x5 : Cert.KernelIdeal.HostValue.FA Cert.KernelIdeal.S128x64)
    (x6 : Cert.KernelIdeal.HostValue.FA Cert.KernelIdeal.S64) (msgs : Cert.KernelIdeal.HostValue.HA Cert.KernelIdeal.S800000x64)
    (h : extf (F := Ideal) .f32 msgs Cert.KernelIdeal.Gen.bitsLt_bf16_f32 = Cert.ReferenceIdeal.Read.val_main_v27 (F := Ideal) x0 x1 x2 x3 x4 x5 x6) :
    Cert.KernelIdeal.HostValue.aggOf x1 msgs = Cert.ReferenceIdeal.Read.val_main_v30 (F := Ideal) x0 x1 x2 x3 x4 x5 x6 := by
  unfold Cert.KernelIdeal.HostValue.aggOf Cert.ReferenceIdeal.Read.val_main_v30
  rw [h]
  rfl

/-- Joining the features with the summed messages is the same operation in both programs. -/
theorem nodeIn_eq (x0 : Cert.KernelIdeal.HostValue.FA Cert.KernelIdeal.S50000x64) (x1 : Cert.KernelIdeal.HostValue.IA Cert.KernelIdeal.S2x800000)
    (x2 : Cert.KernelIdeal.HostValue.FA Cert.KernelIdeal.S800000x8) (x3 : Cert.KernelIdeal.HostValue.FA Cert.KernelIdeal.S136x128)
    (x4 : Cert.KernelIdeal.HostValue.FA Cert.KernelIdeal.S128) (x5 : Cert.KernelIdeal.HostValue.FA Cert.KernelIdeal.S128x64)
    (x6 : Cert.KernelIdeal.HostValue.FA Cert.KernelIdeal.S64) (msgs : Cert.KernelIdeal.HostValue.HA Cert.KernelIdeal.S800000x64)
    (h : Cert.KernelIdeal.HostValue.aggOf x1 msgs = Cert.ReferenceIdeal.Read.val_main_v30 (F := Ideal) x0 x1 x2 x3 x4 x5 x6) :
    Cert.KernelIdeal.HostValue.nodeIn x0 x1 msgs = Cert.ReferenceIdeal.Read.val_main_v31 (F := Ideal) x0 x1 x2 x3 x4 x5 x6 := by
  unfold Cert.KernelIdeal.HostValue.nodeIn Cert.ReferenceIdeal.Read.val_main_v31
  rw [h]
  rfl

section
open Cert.KernelIdeal Cert.KernelIdeal.Gen Cert.KernelIdeal.HostValue Cert.KernelIdeal.Result

variable (m : (ℓ : Loc Cert.KernelIdeal.nD Cert.KernelIdeal.τ Cert.KernelIdeal.sig) → Buf (Elt Ideal) ℓ)

/-- Under the precondition the kernel program's edge messages are the reference's. -/
theorem msgs_eq (hpre : Cert.Pre_KernelIdeal m) (c : Dev Cert.KernelIdeal.nD) (i : Cert.KernelIdeal.S800000x64.Idx) :
    msgs m c i = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) i := by
  rw [Cert.ReferenceIdeal.RefValue.msgs_apply, Cert.GnnSpec.edgeRowJoined_eq]
  unfold msgs Cert.GnnSpec.edgeArr
  refine edgeRow_congr _ ?_ ?_ ?_ ?_ rfl rfl rfl
  · funext k
    unfold slab Cert.ReferenceIdeal.Read.val_main_v18
    rw [takeRows_src m hpre c, takeRows_dst m hpre c, gathered_src, gathered_dst]
    exact (Cert.Joined.join3_left _ _ _ _ Cert.KernelIdeal.Gen.concatenates_S800000x64_S800000x64_S800000x128_d1 (rowOf i) k).symm
  · funext k
    unfold Cert.ReferenceIdeal.Read.val_main_v18
    exact (Cert.Joined.join3_right _ _ _ _ (rowOf i) k).symm
  · funext k' k
    exact w1_top _ k' k
  · funext k'' k
    exact w1_bottom _ k'' k

/-- Under the precondition the kernel program's result array is the reference's result. -/
theorem result_eq (ρ : Dev Cert.KernelIdeal.nD → PrngReg) (hpre : Cert.Pre_KernelIdeal m) (c : Dev Cert.KernelIdeal.nD) :
    W7 m ρ c (Proc.devRef .tc main_v23)
      = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [result m ρ c, Cert.ReferenceIdeal.RefValue.out_eq]
  have hmsg : extf (F := Ideal) .f32 (msgs m c) bitsLt_bf16_f32
      = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    funext fun i => msgs_eq m hpre c i
  rw [nodeIn_eq _ _ _ _ _ _ _ _ (aggOf_eq _ _ _ _ _ _ _ _ hmsg)]
  rfl

end

end Cert.Proof.Bridge

end
-- ==== Proof.lean ====
/-
  A message-passing layer on a graph of 50000 nodes and 800000 edges: each edge's message is a two-layer
  perceptron of its source and destination feature rows and its attribute row; messages are summed into their
  destination nodes; each node's new features are the layer norm of its features plus a two-layer perceptron of
  its features joined with its summed messages.

  The kernel program computes the two perceptrons in two pipelined kernels (8000 edges, 5000 nodes per grid
  point) and gathers, sums and joins on the host; the reference does everything on the host. Over the extended
  reals, under the precondition (finite float inputs, every index in [-50000, 50000)), both end with the same
  result array: the kernel program's masked row-taking is the reference's gathering because every index is in
  range, and the kernel's split first contraction (128 + 8 columns) is the reference's joined one (136 columns).
  Each program also runs to the end without a fault and leaves its arguments unchanged.
-/
import proofs.«420053_j7799660609778_2_alg».proof.Defs
import proofs.«420053_j7799660609778_2_alg».proof.Proof.Gen.Kernel
import proofs.«420053_j7799660609778_2_alg».proof.Proof.Gen.Kernel.Frame
import proofs.«420053_j7799660609778_2_alg».proof.Proof.Gen.KernelIdeal
import proofs.«420053_j7799660609778_2_alg».proof.Proof.Gen.KernelIdeal.Frame
import proofs.«420053_j7799660609778_2_alg».proof.Proof.Gen.ReferenceIdeal
import proofs.«420053_j7799660609778_2_alg».proof.Proof.Gen.Pre_finite_inputs
import proofs.«420053_j7799660609778_2_alg».proof.Proof.Gen.ReferenceIdeal.Run
import proofs.«420053_j7799660609778_2_alg».proof.Proof.Gen.ReferenceIdeal.Read
import proofs.«420053_j7799660609778_2_alg».proof.Proof.KernelRun
import proofs.«420053_j7799660609778_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array: the kernel
    program's is the last region's output, which is the reference's result as a function of the arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v23),
    Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v65_eq, h0, h1, h2, h3, h4, h5, h6, h7, h8, h9, h10, h11, h12]
  exact (Cert.Proof.Bridge.result_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
